-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S64x40 .f32) (main_arg10 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x40 .f32) (main_arg9 : FVec F S64x40 .f32) (main_arg10 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1250000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x40 .f32) (main_arg9 : FVec F S64x40 .f32) (main_arg10 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1x64 : Shape := ⟨2, ![1, 64]⟩
abbrev S1x40 : Shape := ⟨2, ![1, 40]⟩
abbrev S1250000x64 : Shape := ⟨2, ![1250000, 64]⟩
abbrev S5000x64 : Shape := ⟨2, ![5000, 64]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 79
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S64x40, .f32⟩
  | .hbm, ⟨10, _⟩ => ⟨S40, .f32⟩
  | .hbm, ⟨11, _⟩ => ⟨S1x1250000, .i32⟩
  | .hbm, ⟨12, _⟩ => ⟨S1250000, .i32⟩
  | .hbm, ⟨13, _⟩ => ⟨S1x1250000, .i32⟩
  | .hbm, ⟨14, _⟩ => ⟨S1250000, .i32⟩
  | .hbm, ⟨15, _⟩ => ⟨S_, .f32⟩
  | .hbm, ⟨16, _⟩ => ⟨S1250000, .f32⟩
  | .hbm, ⟨17, _⟩ => ⟨S_, .f32⟩
  | .hbm, ⟨18, _⟩ => ⟨S100000, .f32⟩
  | .hbm, ⟨19, _⟩ => ⟨S1250000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x64, .f32⟩
  | .hbm, ⟨29, _⟩ => ⟨S1x64, .f32⟩
  | .hbm, ⟨30, _⟩ => ⟨S1x40, .f32⟩
  | .hbm, ⟨31, _⟩ => ⟨S_, .i32⟩
  | .hbm, ⟨32, _⟩ => ⟨S1250000, .i32⟩
  | .hbm, ⟨33, _⟩ => ⟨S1250000, .i1⟩
  | .hbm, ⟨34, _⟩ => ⟨S_, .i32⟩
  | .hbm, ⟨35, _⟩ => ⟨S1250000, .i32⟩
  | .hbm, ⟨36, _⟩ => ⟨S1250000, .i32⟩
  | .hbm, ⟨37, _⟩ => ⟨S1250000, .i32⟩
  | .hbm, ⟨38, _⟩ => ⟨S1250000x1, .i32⟩
  | .hbm, ⟨39, _⟩ => ⟨S1250000x64, .f32⟩
  | .hbm, ⟨40, _⟩ => ⟨S_, .f32⟩
  | .hbm, ⟨41, _⟩ => ⟨S100000x64, .f32⟩
  | .hbm, ⟨42, _⟩ => ⟨S1250000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1250000, .i32⟩
  | .hbm, ⟨49, _⟩ => ⟨S1250000, .i1⟩
  | .hbm, ⟨50, _⟩ => ⟨S_, .i32⟩
  | .hbm, ⟨51, _⟩ => ⟨S1250000, .i32⟩
  | .hbm, ⟨52, _⟩ => ⟨S1250000, .i32⟩
  | .hbm, ⟨53, _⟩ => ⟨S1250000, .i32⟩
  | .hbm, ⟨54, _⟩ => ⟨S1250000x1, .i32⟩
  | .hbm, ⟨55, _⟩ => ⟨S1250000x64, .f32⟩
  | .hbm, ⟨56, _⟩ => ⟨S_, .f32⟩
  | .hbm, ⟨57, _⟩ => ⟨S100000x64, .f32⟩
  | .hbm, ⟨58, _⟩ => ⟨S1250000x1, .i32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1250000, .i32⟩
  | .hbm, ⟨65, _⟩ => ⟨S1250000, .i1⟩
  | .hbm, ⟨66, _⟩ => ⟨S_, .i32⟩
  | .hbm, ⟨67, _⟩ => ⟨S1250000, .i32⟩
  | .hbm, ⟨68, _⟩ => ⟨S1250000, .i32⟩
  | .hbm, ⟨69, _⟩ => ⟨S1250000, .i32⟩
  | .hbm, ⟨70, _⟩ => ⟨S1250000x1, .i32⟩
  | .hbm, ⟨71, _⟩ => ⟨S1250000x64, .f32⟩
  | .hbm, ⟨72, _⟩ => ⟨S_, .f32⟩
  | .hbm, ⟨73, _⟩ => ⟨S100000x64, .f32⟩
  | .hbm, ⟨74, _⟩ => ⟨S1250000x1, .i32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x40, .f32⟩
  | .local _ .vmem, ⟨23, _⟩ => ⟨S64x40, .f32⟩
  | .local _ .vmem, ⟨24, _⟩ => ⟨S1x40, .f32⟩
  | .local _ .vmem, ⟨25, _⟩ => ⟨S5000x40, .f32⟩
  | .local _ .vmem, ⟨26, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  shapeCasts_S64_S1x64 : S64.ShapeCasts S1x64
  shapeCasts_S40_S1x40 : S40.ShapeCasts S1x40
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x40.size a ≤ S64x40.size a
  hwx2_3 : ∀ i : grid2.Coords, EltTy.bits .f32 = 32 ∨ (Rect.block (s := S64x40) S64x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 112
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S64x40, .f32⟩
  | .hbm, ⟨10, _⟩ => ⟨S40, .f32⟩
  | .hbm, ⟨11, _⟩ => ⟨S1x1250000, .i32⟩
  | .hbm, ⟨12, _⟩ => ⟨S1250000, .i32⟩
  | .hbm, ⟨13, _⟩ => ⟨S1x1250000, .i32⟩
  | .hbm, ⟨14, _⟩ => ⟨S1250000, .i32⟩
  | .hbm, ⟨15, _⟩ => ⟨S_, .f32⟩
  | .hbm, ⟨16, _⟩ => ⟨S1250000, .f32⟩
  | .hbm, ⟨17, _⟩ => ⟨S_, .f32⟩
  | .hbm, ⟨18, _⟩ => ⟨S100000, .f32⟩
  | .hbm, ⟨19, _⟩ => ⟨S1250000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1250000, .i32⟩
  | .hbm, ⟨30, _⟩ => ⟨S1250000, .i1⟩
  | .hbm, ⟨31, _⟩ => ⟨S_, .i32⟩
  | .hbm, ⟨32, _⟩ => ⟨S1250000, .i32⟩
  | .hbm, ⟨33, _⟩ => ⟨S1250000, .i32⟩
  | .hbm, ⟨34, _⟩ => ⟨S1250000, .i32⟩
  | .hbm, ⟨35, _⟩ => ⟨S1250000x1, .i32⟩
  | .hbm, ⟨36, _⟩ => ⟨S1250000x64, .f32⟩
  | .hbm, ⟨37, _⟩ => ⟨S_, .f32⟩
  | .hbm, ⟨38, _⟩ => ⟨S100000x64, .f32⟩
  | .hbm, ⟨39, _⟩ => ⟨S1250000x1, .i32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1250000, .i32⟩
  | .hbm, ⟨54, _⟩ => ⟨S1250000, .i1⟩
  | .hbm, ⟨55, _⟩ => ⟨S_, .i32⟩
  | .hbm, ⟨56, _⟩ => ⟨S1250000, .i32⟩
  | .hbm, ⟨57, _⟩ => ⟨S1250000, .i32⟩
  | .hbm, ⟨58, _⟩ => ⟨S1250000, .i32⟩
  | .hbm, ⟨59, _⟩ => ⟨S1250000x1, .i32⟩
  | .hbm, ⟨60, _⟩ => ⟨S1250000x64, .f32⟩
  | .hbm, ⟨61, _⟩ => ⟨S_, .f32⟩
  | .hbm, ⟨62, _⟩ => ⟨S100000x64, .f32⟩
  | .hbm, ⟨63, _⟩ => ⟨S1250000x1, .i32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1250000, .i32⟩
  | .hbm, ⟨78, _⟩ => ⟨S1250000, .i1⟩
  | .hbm, ⟨79, _⟩ => ⟨S_, .i32⟩
  | .hbm, ⟨80, _⟩ => ⟨S1250000, .i32⟩
  | .hbm, ⟨81, _⟩ => ⟨S1250000, .i32⟩
  | .hbm, ⟨82, _⟩ => ⟨S1250000, .i32⟩
  | .hbm, ⟨83, _⟩ => ⟨S1250000x1, .i32⟩
  | .hbm, ⟨84, _⟩ => ⟨S1250000x64, .f32⟩
  | .hbm, ⟨85, _⟩ => ⟨S_, .f32⟩
  | .hbm, ⟨86, _⟩ => ⟨S100000x64, .f32⟩
  | .hbm, ⟨87, _⟩ => ⟨S1250000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | .hbm, ⟨95, _⟩ => ⟨S100000x40, .f32⟩
  | .hbm, ⟨96, _⟩ => ⟨S100000x40, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x40, .f32⟩
  | .hbm, ⟨104, _⟩ => ⟨S100000x40, .f32⟩
  | .hbm, ⟨105, _⟩ => ⟨S100000x40, .f32⟩
  | .hbm, ⟨106, _⟩ => ⟨S_, .f32⟩
  | .hbm, ⟨107, _⟩ => ⟨S100000, .f32⟩
  | .hbm, ⟨108, _⟩ => ⟨S100000x1, .f32⟩
  | .hbm, ⟨109, _⟩ => ⟨S100000x1, .f32⟩
  | .hbm, ⟨110, _⟩ => ⟨S100000x40, .f32⟩
  | .hbm, ⟨111, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_call2_cst_0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_cst_1 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_v69 : Ref sig .tc := ⟨.hbm, 111, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KLayers.lean ====
/-
  The host arithmetic between the kernel's three pallas_calls: the neighbourhood mean, as the very operations the program applies.

  From the edge list: the destinations (row 0) and the sources (row 1, a negative index wrapped by the node count);
  the in-degree of every node by scattering ones, `1 / max (degree) 1` as a column; and the mean of a node array `h`:
  gather the source rows, scatter-add them at the destinations into zeros, scale each row by the column.
-/
import proofs.«175299_j15985868276093_1_alg».proof.Proof.Gen.KernelIdeal
import Idealize.ShloMosaic.PureOps.Ideal

noncomputable section

namespace Cert.KLayers

open Idealize.ShloMosaic Cert.KernelIdeal Cert.KernelIdeal.Gen

variable {F : FTy → Type} [FloatOps F]

/-- The destination node of every edge. -/
def dstRow (e : IVec S2x1250000 32) : IVec S1250000 32 :=
  shapeCast _ (extractStridedSlice S1x1250000 ![0, 0] e slices_S2x1250000_S1x1250000_0_0) shapeCasts_S1x1250000_S1250000

/-- The source node of every edge. -/
def srcRow (e : IVec S2x1250000 32) : IVec S1250000 32 :=
  shapeCast _ (extractStridedSlice S1x1250000 ![1, 0] e slices_S2x1250000_S1x1250000_1_0) shapeCasts_S1x1250000_S1250000

/-- `1 / max (in-degree) 1` of every node, as a column. -/
def degInvCol (d : IVec S1250000 32) : FVec F S100000x1 .f32 :=
  broadcastInDim S100000x1 ![0] bcast_S100000_S100000x1_0
    (Host.divf (broadcastInDim S100000 ![] bcast_S_S100000 (constant S_ .f32 0x3F800000#32))
      (maximumf (Host.scatterAdd scatter_S100000_S1250000x1_S1250000_n_0_0_1 (broadcastInDim S100000 ![] bcast_S_S100000 (constant S_ .f32 0x00000000#32))
          (broadcastInDim S1250000x1 ![0] bcast_S1250000_S1250000x1_0 d) (broadcastInDim S1250000 ![] bcast_S_S1250000 (constant S_ .f32 0x3F800000#32)))
        (broadcastInDim S100000 ![] bcast_S_S100000 (constant S_ .f32 0x3F800000#32))))

/-- The neighbourhood mean of a node array `h` over edges with destinations `d` and sources `s`, rows scaled by the column `dinv`. -/
def aggOf (d s : IVec S1250000 32) (dinv : FVec F S100000x1 .f32) (h : FVec F S100000x64 .f32) : FVec F S100000x64 .f32 :=
  mulf (Host.scatterAdd scatter_S100000x64_S1250000x1_S1250000x64_1_0_0_1
      (broadcastInDim S100000x64 ![] bcast_S_S100000x64 (constant S_ .f32 0x00000000#32))
      (broadcastInDim S1250000x1 ![0] bcast_S1250000_S1250000x1_0 d)
      (Host.gather gather_S100000x64_S1250000x1_S1250000x64_1_0_n_n_0_1_164 h
        (broadcastInDim S1250000x1 ![0] bcast_S1250000_S1250000x1_0
          (select (cmpi .slt s (broadcastInDim S1250000 ![] bcast_S_S1250000 (constantI S_ 32 0#32)))
            (addi s (broadcastInDim S1250000 ![] bcast_S_S1250000 (constantI S_ 32 100000#32))) s))))
    (broadcastInDim S100000x64 ![0, 1] bcast_S100000x1_S100000x64_0_1 dinv)

/-- The neighbourhood mean over the edge list `e`. -/
def agg (e : IVec S2x1250000 32) (h : FVec F S100000x64 .f32) : FVec F S100000x64 .f32 :=
  aggOf (dstRow e) (srcRow e) (degInvCol (dstRow e)) h

end Cert.KLayers

end
-- ==== Proof.Spec.lean ====
/-
  One layer of mean-aggregating message passing, on a single node's row, over the extended reals.

  A node's new features are an affine map of two rows: its neighbourhood mean `a` and its own features `x`,
  `lin a x wl wr b j = (∑ k, a k · wl k j) + (∑ k, x k · wr k j) + b j`.
  The hidden layers clip at zero (`reluOut`); the last layer normalises its 40 scores by the stable
  log-softmax `h j − M − log (∑ q, exp (h q − M))` with `M` the row's maximum (`lsmOut`).
  Nothing here mentions a program: both programs' results are read against these functions, row by row.
-/
import Idealize.ShloMosaic.PureOps.Ideal
import Idealize.ShloMosaic.Lib.ValueIdx
import Mathlib.Data.EReal.Basic
import Mathlib.Algebra.BigOperators.Group.Finset.Basic

noncomputable section

namespace Sage

open Idealize.ShloMosaic

/-- The affine part of a layer at output feature `j`: neighbourhood mean times `wl`, plus own features times `wr`, plus bias. -/
def lin {n : Nat} (a x : Fin 64 → EReal) (wl wr : Fin 64 → Fin n → EReal) (b : Fin n → EReal) (j : Fin n) : EReal :=
  (∑ k : Fin 64, a k * wl k j) + (∑ k : Fin 64, x k * wr k j) + b j

/-- A hidden layer's output feature: the affine part clipped at zero. -/
def reluOut {n : Nat} (a x : Fin 64 → EReal) (wl wr : Fin 64 → Fin n → EReal) (b : Fin n → EReal) (j : Fin n) : EReal :=
  max (lin a x wl wr b j) 0

/-- The largest of a row's 40 scores (the fold of `max` from −∞). -/
def rowMax (h : Fin 40 → EReal) : EReal := Finset.univ.fold max (⊥ : EReal) h

/-- The stable log-softmax of a row of 40 scores, at class `j`. -/
def lsm (h : Fin 40 → EReal) (j : Fin 40) : EReal :=
  h j - rowMax h - Ideal.log (∑ q : Fin 40, Ideal.exp (h q - rowMax h))

/-- The last layer's output: the log-softmax of the affine part. -/
def lsmOut (a x : Fin 64 → EReal) (wl wr : Fin 64 → Fin 40 → EReal) (b : Fin 40 → EReal) (j : Fin 40) : EReal :=
  lsm (lin a x wl wr b) j

/-! ## The layers over the whole node array

A row of the node array is the slice of its first coordinate; the weights are read as `wl k j`, and the bias, kept as a
one-row matrix, at its only row. -/

open Idealize.ShloMosaic.ValueIdx

/-- A hidden layer over all 100000 nodes: entry `(r, j)` is `reluOut` of node `r`'s two rows. -/
def reluArr (a x : (⟨2, ![100000, 64]⟩ : Shape).Idx → EReal) (wl wr : (⟨2, ![64, 64]⟩ : Shape).Idx → EReal)
    (b : (⟨2, ![1, 64]⟩ : Shape).Idx → EReal) : (⟨2, ![100000, 64]⟩ : Shape).Idx → EReal := fun i =>
  reluOut (fun k => a (ix2 (i 0) k)) (fun k => x (ix2 (i 0) k)) (fun k j => wl (ix2 k j)) (fun k j => wr (ix2 k j))
    (fun j => b (ix2 0 j)) (i 1)

/-- The last layer over all 100000 nodes: entry `(r, j)` is `lsmOut` of node `r`'s two rows. -/
def lsmArr (a x : (⟨2, ![100000, 64]⟩ : Shape).Idx → EReal) (wl wr : (⟨2, ![64, 40]⟩ : Shape).Idx → EReal)
    (b : (⟨2, ![1, 40]⟩ : Shape).Idx → EReal) : (⟨2, ![100000, 40]⟩ : Shape).Idx → EReal := fun i =>
  lsmOut (fun k => a (ix2 (i 0) k)) (fun k => x (ix2 (i 0) k)) (fun k j => wl (ix2 k j)) (fun k j => wr (ix2 k j))
    (fun j => b (ix2 0 j)) (i 1)

theorem reluArr_ix2 (a x : (⟨2, ![100000, 64]⟩ : Shape).Idx → EReal) (wl wr : (⟨2, ![64, 64]⟩ : Shape).Idx → EReal)
    (b : (⟨2, ![1, 64]⟩ : Shape).Idx → EReal) (r : Fin 100000) (j : Fin 64) :
    reluArr a x wl wr b (ix2 r j)
      = reluOut (fun k => a (ix2 r k)) (fun k => x (ix2 r k)) (fun k j => wl (ix2 k j)) (fun k j => wr (ix2 k j)) (fun j => b (ix2 0 j)) j := rfl

theorem lsmArr_ix2 (a x : (⟨2, ![100000, 64]⟩ : Shape).Idx → EReal) (wl wr : (⟨2, ![64, 40]⟩ : Shape).Idx → EReal)
    (b : (⟨2, ![1, 40]⟩ : Shape).Idx → EReal) (r : Fin 100000) (j : Fin 40) :
    lsmArr a x wl wr b (ix2 r j)
      = lsmOut (fun k => a (ix2 r k)) (fun k => x (ix2 r k)) (fun k j => wl (ix2 k j)) (fun k j => wr (ix2 k j)) (fun j => b (ix2 0 j)) j := rfl

end Sage

end
-- ==== Proof.PayRelu.lean ====
/-
  The two hidden layers' kernel bodies, read at one entry of the output block.

  A body loads a 5000-row block of neighbourhood means and of node features, the two weight matrices and the bias row,
  narrows the four matrices' format (the identity on the extended reals), multiplies each block by its weights into a
  zero accumulator, adds the two products and the bias row repeated over the rows, and clips at zero.
  At entry `(p, q)` that is `Sage.reluOut` of row `p` of the two blocks.
-/
import proofs.«175299_j15985868276093_1_alg».proof.Proof.Gen.KernelIdeal.Skeleton
import proofs.«175299_j15985868276093_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRelu

open Idealize.ShloMosaic Idealize.ShloMosaic.ValueIdx Cert.KernelIdeal Cert.KernelIdeal.Gen

/-! ## The product of a 5000-row block by a 64 × 64 matrix, at one entry

The operand indices of the product at output entry `i` and contraction position `c`: the left one is `(i 0, c)`, the
right one `(c, i 1)`. One statement per axis. -/

private theorem lhs_axis0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

private theorem lhs_axis1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c

private theorem rhs_axis0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c

private theorem rhs_axis1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator at entry `(p, q)`: the sum over `k` of row `p` of the block times column `q` of
    the matrix. -/
theorem matmul_zero_ix2 {φ₁ φ₂ : FTy} (a : FVec Ideal S5000x64 φ₁) (w : FVec Ideal S64x64 φ₂) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_axis0 _ _
      | ⟨1, _⟩ => exact (lhs_axis1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs_axis0 _ _).trans hk
      | ⟨1, _⟩ => exact rhs_axis1 _ _)
  rw [el, er]

/-- The bias row repeated over the 5000 rows, at entry `(p, q)`: the row's entry `q`. -/
theorem bias_ix2 (b : FVec Ideal S1x64 .f32) (h : S1x64.Broadcasts S5000x64) (p : Fin 5000) (q : Fin 64) :
    broadcastTo S5000x64 b h (ix2 p q) = b (ix2 0 q) :=
  broadcastTo_apply b h (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- The first layer's body at entry `(p, q)` of its output block. -/
theorem pay0_apply (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ix2 p q)
      = Sage.reluOut (fun k => x0 (ix2 p k)) (fun k => x1 (ix2 p k)) (fun k j => x2 (ix2 k j)) (fun k j => x3 (ix2 k j))
          (fun j => x4 (ix2 0 j)) q := by
  unfold k0_pay1
  simp only [maximumf_apply, addf_apply, broadcast_apply, matmul_zero_ix2, bias_ix2, shapeCast_self, truncf_apply]
  show max _ (Ideal.ofBits .f32 0x00000000#32) = _
  rw [Ideal.ofBits_zero_f32]
  rfl

/-- The second layer's body at entry `(p, q)` of its output block. -/
theorem pay1_apply (x0 x1 : Vec Ideal S5000x64 .f32) (x2 x3 : Vec Ideal S64x64 .f32) (x4 : Vec Ideal S1x64 .f32)
    (p : Fin 5000) (q : Fin 64) :
    k1_pay1 (F := Ideal) x0 x1 x2 x3 x4 (ix2 p q)
      = Sage.reluOut (fun k => x0 (ix2 p k)) (fun k => x1 (ix2 p k)) (fun k j => x2 (ix2 k j)) (fun k j => x3 (ix2 k j))
          (fun j => x4 (ix2 0 j)) q := by
  unfold k1_pay1
  simp only [maximumf_apply, addf_apply, broadcast_apply, matmul_zero_ix2, bias_ix2, shapeCast_self, truncf_apply]
  show max _ (Ideal.ofBits .f32 0x00000000#32) = _
  rw [Ideal.ofBits_zero_f32]
  rfl

end Cert.KernelIdeal.PayRelu

end
-- ==== Proof.Region0.lean ====
/-
  The first layer's pallas_call, from blocks to the array.

  Grid point `t` (of 20) reads rows `5000 t … 5000 t + 4999` of the neighbourhood means and of the node features, the two
  weight matrices and the bias row whole, and writes rows `5000 t … 5000 t + 4999` of the output. The body's result at
  entry `(p, q)` of its block is `Sage.reluOut` of row `p` of the two blocks, which is row `5000 t + p` of the arrays: so the
  block written back at point `t` is block `t` of `Sage.reluArr` of the arrays as the call finds them, and the 20 blocks
  cover the output array.
-/
import proofs.«175299_j15985868276093_1_alg».proof.Proof.Gen.KernelIdeal.Frame
import proofs.«175299_j15985868276093_1_alg».proof.Proof.PayRelu
import proofs.«175299_j15985868276093_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, the whole-array windows at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array row that row `p` of point `t`'s block is. -/
def row (t : Fin cfg0.N) (p : Fin 5000) : Fin 100000 :=
  ⟨5000 * t.val + p.val, by have ht := t.isLt; have h20 : cfg0.N = 20 := N_0; have hp := p.isLt; omega⟩

theorem blk0_apply (c : Dev nD) (t : Fin cfg0.N) (p : Fin 5000) (k : Fin 64) :
    iblk0 V c 0 t (ix2 p k) = V c main_v27 (ix2 (row t p) k) := by
  obtain ⟨e0, e1, -⟩ := idx_facts t
  unfold iblk0
  rw [View.read_apply]
  show V c main_v27 (((cfg0.win 0).blk t).view.emb (ix2 p k)) = V c main_v27 (ix2 (row t p) k)
  refine congrArg (V c main_v27) ?_
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega

theorem blk1_apply (c : Dev nD) (t : Fin cfg0.N) (p : Fin 5000) (k : Fin 64) :
    iblk0 V c 1 t (ix2 p k) = V c main_arg0 (ix2 (row t p) k) := by
  obtain ⟨-, -, e0, e1, -⟩ := idx_facts t
  unfold iblk0
  rw [View.read_apply]
  show V c main_arg0 (((cfg0.win 1).blk t).view.emb (ix2 p k)) = V c main_arg0 (ix2 (row t p) k)
  refine congrArg (V c main_arg0) ?_
  funext a; apply Fin.ext
  match a with
  | ⟨0, _⟩ => show win0_1.index t (0 : Fin 2) * 5000 + 1 * p.val = 5000 * t.val + p.val; omega
  | ⟨1, _⟩ => show win0_1.index t (1 : Fin 2) * 64 + 1 * k.val = k.val; omega

theorem blk2_apply (c : Dev nD) (t : Fin cfg0.N) (k j : Fin 64) :
    iblk0 V c 2 t (ix2 k j) = V c main_arg2 (ix2 k j) := by
  obtain ⟨-, -, -, -, e0, e1, -⟩ := idx_facts t
  unfold iblk0
  rw [View.read_apply]
  show V c main_arg2 (((cfg0.win 2).blk t).view.emb (ix2 k j)) = V c main_arg2 (ix2 k j)
  refine congrArg (V c main_arg2) ?_
  funext a; apply Fin.ext
  match a with
  | ⟨0, _⟩ => show win0_2.index t (0 : Fin 2) * 64 + 1 * k.val = k.val; omega
  | ⟨1, _⟩ => show win0_2.index t (1 : Fin 2) * 64 + 1 * j.val = j.val; omega

theorem blk3_apply (c : Dev nD) (t : Fin cfg0.N) (k j : Fin 64) :
    iblk0 V c 3 t (ix2 k j) = V c main_arg3 (ix2 k j) := by
  obtain ⟨-, -, -, -, -, -, e0, e1, -⟩ := idx_facts t
  unfold iblk0
  rw [View.read_apply]
  show V c main_arg3 (((cfg0.win 3).blk t).view.emb (ix2 k j)) = V c main_arg3 (ix2 k j)
  refine congrArg (V c main_arg3) ?_
  funext a; apply Fin.ext
  match a with
  | ⟨0, _⟩ => show win0_3.index t (0 : Fin 2) * 64 + 1 * k.val = k.val; omega
  | ⟨1, _⟩ => show win0_3.index t (1 : Fin 2) * 64 + 1 * j.val = j.val; omega

theorem blk4_apply (c : Dev nD) (t : Fin cfg0.N) (j : Fin 64) :
    iblk0 V c 4 t (ix2 0 j) = V c main_v13 (ix2 0 j) := by
  obtain ⟨-, -, -, -, -, -, -, -, e0, e1, -⟩ := idx_facts t
  unfold iblk0
  rw [View.read_apply]
  show V c main_v13 (((cfg0.win 4).blk t).view.emb (ix2 0 j)) = V c main_v13 (ix2 0 j)
  refine congrArg (V c main_v13) ?_
  funext a; apply Fin.ext
  match a with
  | ⟨0, _⟩ => show win0_4.index t (0 : Fin 2) * 1 + 1 * (0 : Fin 1).val = (0 : Fin 1).val; omega
  | ⟨1, _⟩ => show win0_4.index t (1 : Fin 2) * 64 + 1 * j.val = j.val; omega

theorem emb5_apply (t : Fin cfg0.N) (p : Fin 5000) (q : Fin 64) :
    ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 5000 + 1 * p.val = 5000 * t.val + p.val; omega
  | ⟨1, _⟩ => show win0_5.index t (1 : Fin 2) * 64 + 1 * q.val = q.val; omega

/-- What point `t` writes back is block `t` of the layer applied to the arrays as the call finds them. -/
theorem flushed_eq (c : Dev nD) (t : Fin cfg0.N) :
    (dat0 V c).flushed 5 t = ((cfg0.win 5).blk t).view.read (Elt Ideal)
      (Sage.reluArr (V c main_v27) (V c main_arg0) (V c main_arg2) (V c main_arg3) (V c main_v13)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (iblk0 V c 3 t) (iblk0 V c 4 t) (ix2 p q)
    = Sage.reluArr (V c main_v27) (V c main_arg0) (V c main_arg2) (V c main_arg3) (V c main_v13) (((cfg0.win 5).blk t).view.emb (ix2 p q))
  rw [Cert.KernelIdeal.PayRelu.pay0_apply, emb5_apply, Sage.reluArr_ix2]
  rw [show (fun k => iblk0 V c 0 t (ix2 p k)) = (fun k => V c main_v27 (ix2 (row t p) k)) from funext fun k => blk0_apply V c t p k,
    show (fun k => iblk0 V c 1 t (ix2 p k)) = (fun k => V c main_arg0 (ix2 (row t p) k)) from funext fun k => blk1_apply V c t p k,
    show (fun k j => iblk0 V c 2 t (ix2 k j)) = (fun k j => V c main_arg2 (ix2 k j)) from funext fun k => funext fun j => blk2_apply V c t k j,
    show (fun k j => iblk0 V c 3 t (ix2 k j)) = (fun k j => V c main_arg3 (ix2 k j)) from funext fun k => funext fun j => blk3_apply V c t k j,
    show (fun j => iblk0 V c 4 t (ix2 0 j)) = (fun j => V c main_v13 (ix2 0 j)) from funext fun j => blk4_apply V c t j]

/-- An index of the output array is in point `t`'s block iff its row is among the block's 5000 rows. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Every index of the output array lies in the block of the point its row selects. -/
theorem cover (i : S100000x64.Idx) : ∃ t : Fin cfg0.N, (cfg0.win 5).flush t = true ∧ i ∈ ((cfg0.win 5).blk t).view.set := by
  have h0 : (i 0).val < 100000 := (i 0).isLt
  have h1 : (i 1).val < 64 := (i 1).isLt
  have h20 : cfg0.N = 20 := N_0
  let t : Fin cfg0.N := ⟨(i 0).val / 5000, by omega⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000
              rw [e0]; show (i 0).val / 5000 * 5000 ≤ (i 0).val ∧ (i 0).val < (i 0).val / 5000 * 5000 + 5000; omega
  | ⟨1, _⟩ => show win0_5.index t (1 : Fin 2) * 64 ≤ (i 1).val ∧ (i 1).val < win0_5.index t (1 : Fin 2) * 64 + 64; omega

/-- After the call the output array holds the layer of the arrays as the call found them. -/
theorem final (c : Dev nD) : (dat0 V c).arrAt 5 cfg0.N
    = Sage.reluArr (V c main_v27) (V c main_arg0) (V c main_arg2) (V c main_arg3) (V c main_v13) :=
  (dat0 V c).arrAt_eq_of_cover 5 _ (fun t _ => flushed_eq V c t) cover

end Cert.KernelIdeal.Region0

end
-- ==== Proof.Region1.lean ====
/-
  The second layer's pallas_call, from blocks to the array.

  Grid point `t` (of 20) reads rows `5000 t … 5000 t + 4999` of the neighbourhood means and of the node features, the two
  weight matrices and the bias row whole, and writes rows `5000 t … 5000 t + 4999` of the output. The body's result at
  entry `(p, q)` of its block is `Sage.reluOut` of row `p` of the two blocks, which is row `5000 t + p` of the arrays: so the
  block written back at point `t` is block `t` of `Sage.reluArr` of the arrays as the call finds them, and the 20 blocks
  cover the output array.
-/
import proofs.«175299_j15985868276093_1_alg».proof.Proof.Gen.KernelIdeal.Frame
import proofs.«175299_j15985868276093_1_alg».proof.Proof.PayRelu
import proofs.«175299_j15985868276093_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, the whole-array windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array row that row `p` of point `t`'s block is. -/
def row (t : Fin cfg1.N) (p : Fin 5000) : Fin 100000 :=
  ⟨5000 * t.val + p.val, by have ht := t.isLt; have h20 : cfg1.N = 20 := N_1; have hp := p.isLt; omega⟩

theorem blk0_apply (c : Dev nD) (t : Fin cfg1.N) (p : Fin 5000) (k : Fin 64) :
    iblk1 V c 0 t (ix2 p k) = V c main_v40 (ix2 (row t p) k) := by
  obtain ⟨e0, e1, -⟩ := idx_facts t
  unfold iblk1
  rw [View.read_apply]
  show V c main_v40 (((cfg1.win 0).blk t).view.emb (ix2 p k)) = V c main_v40 (ix2 (row t p) k)
  refine congrArg (V c main_v40) ?_
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega

theorem blk1_apply (c : Dev nD) (t : Fin cfg1.N) (p : Fin 5000) (k : Fin 64) :
    iblk1 V c 1 t (ix2 p k) = V c main_v28 (ix2 (row t p) k) := by
  obtain ⟨-, -, e0, e1, -⟩ := idx_facts t
  unfold iblk1
  rw [View.read_apply]
  show V c main_v28 (((cfg1.win 1).blk t).view.emb (ix2 p k)) = V c main_v28 (ix2 (row t p) k)
  refine congrArg (V c main_v28) ?_
  funext a; apply Fin.ext
  match a with
  | ⟨0, _⟩ => show win1_1.index t (0 : Fin 2) * 5000 + 1 * p.val = 5000 * t.val + p.val; omega
  | ⟨1, _⟩ => show win1_1.index t (1 : Fin 2) * 64 + 1 * k.val = k.val; omega

theorem blk2_apply (c : Dev nD) (t : Fin cfg1.N) (k j : Fin 64) :
    iblk1 V c 2 t (ix2 k j) = V c main_arg5 (ix2 k j) := by
  obtain ⟨-, -, -, -, e0, e1, -⟩ := idx_facts t
  unfold iblk1
  rw [View.read_apply]
  show V c main_arg5 (((cfg1.win 2).blk t).view.emb (ix2 k j)) = V c main_arg5 (ix2 k j)
  refine congrArg (V c main_arg5) ?_
  funext a; apply Fin.ext
  match a with
  | ⟨0, _⟩ => show win1_2.index t (0 : Fin 2) * 64 + 1 * k.val = k.val; omega
  | ⟨1, _⟩ => show win1_2.index t (1 : Fin 2) * 64 + 1 * j.val = j.val; omega

theorem blk3_apply (c : Dev nD) (t : Fin cfg1.N) (k j : Fin 64) :
    iblk1 V c 3 t (ix2 k j) = V c main_arg6 (ix2 k j) := by
  obtain ⟨-, -, -, -, -, -, e0, e1, -⟩ := idx_facts t
  unfold iblk1
  rw [View.read_apply]
  show V c main_arg6 (((cfg1.win 3).blk t).view.emb (ix2 k j)) = V c main_arg6 (ix2 k j)
  refine congrArg (V c main_arg6) ?_
  funext a; apply Fin.ext
  match a with
  | ⟨0, _⟩ => show win1_3.index t (0 : Fin 2) * 64 + 1 * k.val = k.val; omega
  | ⟨1, _⟩ => show win1_3.index t (1 : Fin 2) * 64 + 1 * j.val = j.val; omega

theorem blk4_apply (c : Dev nD) (t : Fin cfg1.N) (j : Fin 64) :
    iblk1 V c 4 t (ix2 0 j) = V c main_v14 (ix2 0 j) := by
  obtain ⟨-, -, -, -, -, -, -, -, e0, e1, -⟩ := idx_facts t
  unfold iblk1
  rw [View.read_apply]
  show V c main_v14 (((cfg1.win 4).blk t).view.emb (ix2 0 j)) = V c main_v14 (ix2 0 j)
  refine congrArg (V c main_v14) ?_
  funext a; apply Fin.ext
  match a with
  | ⟨0, _⟩ => show win1_4.index t (0 : Fin 2) * 1 + 1 * (0 : Fin 1).val = (0 : Fin 1).val; omega
  | ⟨1, _⟩ => show win1_4.index t (1 : Fin 2) * 64 + 1 * j.val = j.val; omega

theorem emb5_apply (t : Fin cfg1.N) (p : Fin 5000) (q : Fin 64) :
    ((cfg1.win 5).blk t).view.emb (ix2 p q) = ix2 (row t p) q := by
  obtain ⟨-, -, -, -, -, -, -, -, -, -, e0, e1⟩ := idx_facts t
  funext a; apply Fin.ext
  match a with
  | ⟨0, _⟩ => show win1_5.index t (0 : Fin 2) * 5000 + 1 * p.val = 5000 * t.val + p.val; omega
  | ⟨1, _⟩ => show win1_5.index t (1 : Fin 2) * 64 + 1 * q.val = q.val; omega

/-- What point `t` writes back is block `t` of the layer applied to the arrays as the call finds them. -/
theorem flushed_eq (c : Dev nD) (t : Fin cfg1.N) :
    (dat1 V c).flushed 5 t = ((cfg1.win 5).blk t).view.read (Elt Ideal)
      (Sage.reluArr (V c main_v40) (V c main_v28) (V c main_arg5) (V c main_arg6) (V c main_v14)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = Sage.reluArr (V c main_v40) (V c main_v28) (V c main_arg5) (V c main_arg6) (V c main_v14) (((cfg1.win 5).blk t).view.emb (ix2 p q))
  rw [Cert.KernelIdeal.PayRelu.pay1_apply, emb5_apply, Sage.reluArr_ix2]
  rw [show (fun k => iblk1 V c 0 t (ix2 p k)) = (fun k => V c main_v40 (ix2 (row t p) k)) from funext fun k => blk0_apply V c t p k,
    show (fun k => iblk1 V c 1 t (ix2 p k)) = (fun k => V c main_v28 (ix2 (row t p) k)) from funext fun k => blk1_apply V c t p k,
    show (fun k j => iblk1 V c 2 t (ix2 k j)) = (fun k j => V c main_arg5 (ix2 k j)) from funext fun k => funext fun j => blk2_apply V c t k j,
    show (fun k j => iblk1 V c 3 t (ix2 k j)) = (fun k j => V c main_arg6 (ix2 k j)) from funext fun k => funext fun j => blk3_apply V c t k j,
    show (fun j => iblk1 V c 4 t (ix2 0 j)) = (fun j => V c main_v14 (ix2 0 j)) from funext fun j => blk4_apply V c t j]

/-- An index of the output array is in point `t`'s block iff its row is among the block's 5000 rows. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Every index of the output array lies in the block of the point its row selects. -/
theorem cover (i : S100000x64.Idx) : ∃ t : Fin cfg1.N, (cfg1.win 5).flush t = true ∧ i ∈ ((cfg1.win 5).blk t).view.set := by
  have h0 : (i 0).val < 100000 := (i 0).isLt
  have h1 : (i 1).val < 64 := (i 1).isLt
  have h20 : cfg1.N = 20 := N_1
  let t : Fin cfg1.N := ⟨(i 0).val / 5000, by omega⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000
              rw [e0]; show (i 0).val / 5000 * 5000 ≤ (i 0).val ∧ (i 0).val < (i 0).val / 5000 * 5000 + 5000; omega
  | ⟨1, _⟩ => show win1_5.index t (1 : Fin 2) * 64 ≤ (i 1).val ∧ (i 1).val < win1_5.index t (1 : Fin 2) * 64 + 64; omega

/-- After the call the output array holds the layer of the arrays as the call found them. -/
theorem final (c : Dev nD) : (dat1 V c).arrAt 5 cfg1.N
    = Sage.reluArr (V c main_v40) (V c main_v28) (V c main_arg5) (V c main_arg6) (V c main_v14) :=
  (dat1 V c).arrAt_eq_of_cover 5 _ (fun t _ => flushed_eq V c t) cover

end Cert.KernelIdeal.Region1

end
-- ==== Proof.PayLsm.lean ====
/-
  The last layer's kernel body, read at one entry of the output block.

  The body forms the same affine map as the hidden layers (into 40 classes), then per row takes the maximum `M` of the
  40 scores, exponentiates the shifted scores, sums them, and returns `h − M − log (sum)`.
  At entry `(p, q)` that is `Sage.lsmOut` of row `p` of the two blocks.
-/
import proofs.«175299_j15985868276093_1_alg».proof.Proof.Gen.KernelIdeal.Skeleton
import proofs.«175299_j15985868276093_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLsm

open Idealize.ShloMosaic Idealize.ShloMosaic.ValueIdx Cert.KernelIdeal Cert.KernelIdeal.Gen

/-! ## A column: a vector kept as an `[a, 1]` array, and that array spread over `b` lanes -/

section Column
variable {α : Type}

/-- An `[a]` array cast to the column `[a, 1]` reads, at `(i, u)`, the operand at `i`, whatever the unit coordinate `u`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Column

/-! ## The two products -/

theorem lhs_0 (i : S5000x40.Idx) (k : dot_S5000x64_S64x40_S5000x40_1_0_0_1_n_n.contr.Idx) :
    (dot_S5000x64_S64x40_S5000x40_1_0_0_1_n_n.lhsIdx i k 0).val = (i 0).val := by
  unfold DotDims.lhsIdx
  rw [dif_neg (show ¬(0 : Fin S5000x64.rank) ∈ dot_S5000x64_S64x40_S5000x40_1_0_0_1_n_n.lhsBatch by decide),
    dif_pos (show (0 : Fin S5000x64.rank) ∈ dot_S5000x64_S64x40_S5000x40_1_0_0_1_n_n.lhsNonContracting by decide)]
  rfl
theorem lhs_1 (i : S5000x40.Idx) (k : dot_S5000x64_S64x40_S5000x40_1_0_0_1_n_n.contr.Idx) :
    (dot_S5000x64_S64x40_S5000x40_1_0_0_1_n_n.lhsIdx i k 1).val = (k ⟨0, by decide⟩).val :=
  dot_S5000x64_S64x40_S5000x40_1_0_0_1_n_n.lhsIdx_val_of_single rfl i k
theorem rhs_0 (i : S5000x40.Idx) (k : dot_S5000x64_S64x40_S5000x40_1_0_0_1_n_n.contr.Idx) :
    (dot_S5000x64_S64x40_S5000x40_1_0_0_1_n_n.rhsIdx i k 0).val = (k ⟨0, by decide⟩).val :=
  dot_S5000x64_S64x40_S5000x40_1_0_0_1_n_n.rhsIdx_val_of_single rfl i k
theorem rhs_1 (i : S5000x40.Idx) (k : dot_S5000x64_S64x40_S5000x40_1_0_0_1_n_n.contr.Idx) :
    (dot_S5000x64_S64x40_S5000x40_1_0_0_1_n_n.rhsIdx i k 1).val = (i 1).val := by
  unfold DotDims.rhsIdx
  rw [dif_neg (show ¬(1 : Fin S64x40.rank) ∈ dot_S5000x64_S64x40_S5000x40_1_0_0_1_n_n.rhsBatch by decide),
    dif_pos (show (1 : Fin S64x40.rank) ∈ dot_S5000x64_S64x40_S5000x40_1_0_0_1_n_n.rhsNonContracting by decide)]
  rfl

/-- A `[5000, 64] × [64, 40]` product into the zero block, at entry `(p, q)`: the sum over the 64 contracted positions. -/
theorem matmul_apply_ix2 (a : FVec Ideal S5000x64 .bf16) (w : FVec Ideal S64x40 .bf16) (p : Fin 5000) (q : Fin 40) :
    matmul dot_S5000x64_S64x40_S5000x40_1_0_0_1_n_n none a w (constant (F := Ideal) S5000x40 .f32 0x00000000#32) (ix2 p q)
      = ∑ k : Fin 64, a (ix2 p k) * w (ix2 k q) := by
  simp only [matmul]
  rw [Ideal.matmul_constant_zero_apply,
    ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q)
      ((contrEquiv1 dot_S5000x64_S64x40_S5000x40_1_0_0_1_n_n 64 rfl rfl).symm k) = ix2 p k := funext fun ax => Fin.ext (by
    match ax with
    | ⟨0, _⟩ => exact lhs_0 _ _
    | ⟨1, _⟩ => exact (lhs_1 _ _).trans hk)
  have er : dot_S5000x64_S64x40_S5000x40_1_0_0_1_n_n.rhsIdx (ix2 p q)
      ((contrEquiv1 dot_S5000x64_S64x40_S5000x40_1_0_0_1_n_n 64 rfl rfl).symm k) = ix2 k q := funext fun ax => Fin.ext (by
    match ax with
    | ⟨0, _⟩ => exact (rhs_0 _ _).trans hk
    | ⟨1, _⟩ => exact rhs_1 _ _)
  rw [el, er]

/-! ## The affine part -/

/-- The body's 40 scores of every row: the two products and the bias row. -/
def scores (x0 x1 : Vec Ideal S5000x64 .f32) (x2 x3 : Vec Ideal S64x40 .f32) (x4 : Vec Ideal S1x40 .f32) :
    FVec Ideal S5000x40 .f32 :=
  addf
    (addf
      (matmul dot_S5000x64_S64x40_S5000x40_1_0_0_1_n_n none
        (truncf .bf16 (shapeCast S5000x64 x0 shapeCasts_S5000x64_S5000x64) bitsLt_bf16_f32)
        (truncf .bf16 x2 bitsLt_bf16_f32) (constant S5000x40 .f32 0x00000000#32))
      (matmul dot_S5000x64_S64x40_S5000x40_1_0_0_1_n_n none
        (truncf .bf16 (shapeCast S5000x64 x1 shapeCasts_S5000x64_S5000x64) bitsLt_bf16_f32)
        (truncf .bf16 x3 bitsLt_bf16_f32) (constant S5000x40 .f32 0x00000000#32)))
    (broadcastTo S5000x40 (shapeCast S1x40 x4 shapeCasts_S1x40_S1x40) broadcasts_S1x40_S5000x40)

/-- At entry `(p, q)` the scores are the affine map of row `p` of the two blocks. -/
theorem scores_apply (x0 x1 : Vec Ideal S5000x64 .f32) (x2 x3 : Vec Ideal S64x40 .f32) (x4 : Vec Ideal S1x40 .f32)
    (p : Fin 5000) (q : Fin 40) :
    scores x0 x1 x2 x3 x4 (ix2 p q)
      = Sage.lin (fun k => x0 (ix2 p k)) (fun k => x1 (ix2 p k)) (fun k j => x2 (ix2 k j)) (fun k j => x3 (ix2 k j))
          (fun j => x4 (ix2 0 j)) q := by
  unfold scores Sage.lin
  rw [addf_apply, addf_apply, matmul_apply_ix2, matmul_apply_ix2, shapeCast_self, shapeCast_self, shapeCast_self,
    broadcastTo_1b_ab_apply]
  rfl

/-! ## The two reductions over the 40 lanes, at a row -/

/-- The index the lane reductions read at row `p` and lane `k`. -/
theorem lift_ix1 (p : Fin 5000) (k : Fin 40) :
    reduces_S5000x40_S5000.lift (ix1 p) k = ix2 p k :=
  funext fun ax => Fin.ext (by
    match ax with
    | ⟨0, _⟩ => rfl
    | ⟨1, _⟩ => rfl)

/-- The word `0xFF800000` denotes `−∞`. -/
theorem ofBits_neg_inf : Ideal.ofBits .f32 0xFF800000#32 = (⊥ : EReal) := by simp [Ideal.ofBits, Ideal.ieee]

/-- The maximum over the lanes from `−∞`, at row `p`: the row's largest score. -/
theorem rowMax_apply (H : FVec Ideal S5000x40 .f32) (hφ : FKind.Formats .f32)
    (hacc : (0xFF800000#32 : BitVec 32) = FKind.maximumf.neutral .f32 hφ) (p : Fin 5000) :
    multiReduction (F := Ideal) .maximumf [1] S5000 H 0xFF800000#32 reduces_S5000x40_S5000 hφ hacc (ix1 p)
      = Sage.rowMax (fun j => H (ix2 p j)) := by
  refine (Ideal.multiReduction_maximumf_single H _ reduces_S5000x40_S5000 hφ hacc (ix1 p)).trans ?_
  have hH : (H ∘ reduces_S5000x40_S5000.lift (ix1 p)) = fun j : Fin 40 => H (ix2 p j) :=
    funext fun k => congrArg H (lift_ix1 p k)
  show (Finset.univ : Finset (Fin 40)).fold max (Ideal.ofBits .f32 0xFF800000#32)
      (H ∘ reduces_S5000x40_S5000.lift (ix1 p)) = Finset.univ.fold max (⊥ : EReal) (fun j => H (ix2 p j))
  rw [hH, ofBits_neg_inf]
  rfl

/-- The sum over the lanes from zero, at row `p`. -/
theorem rowSum_apply (E : FVec Ideal S5000x40 .f32) (hφ : FKind.Formats .f32)
    (hacc : (0x00000000#32 : BitVec 32) = FKind.add.neutral .f32 hφ) (p : Fin 5000) :
    multiReduction (F := Ideal) .add [1] S5000 E 0x00000000#32 reduces_S5000x40_S5000 hφ hacc (ix1 p)
      = ∑ j : Fin 40, E (ix2 p j) := by
  refine (Ideal.multiReduction_add_single E _ reduces_S5000x40_S5000 hφ hacc (ix1 p)).trans ?_
  exact Finset.sum_congr rfl fun k _ => congrArg E (lift_ix1 p k)

/-! ## The normalisation -/

/-- The body after the scores: at entry `(p, q)` it is the stable log-softmax of row `p` of the scores. -/
theorem tail_apply (H : FVec Ideal S5000x40 .f32) (hφ : FKind.Formats .f32)
    (hmax : (0xFF800000#32 : BitVec 32) = FKind.maximumf.neutral .f32 hφ)
    (hadd : (0x00000000#32 : BitVec 32) = FKind.add.neutral .f32 hφ) (p : Fin 5000) (q : Fin 40) :
    subf
        (subf H
          (broadcastTo S5000x40
            (shapeCast S5000x1 (multiReduction (F := Ideal) .maximumf [1] S5000 H 0xFF800000#32 reduces_S5000x40_S5000 hφ hmax)
              shapeCasts_S5000_S5000x1)
            broadcasts_S5000x1_S5000x40))
        (broadcastTo S5000x40
          (log
            (shapeCast S5000x1
              (multiReduction (F := Ideal) .add [1] S5000
                (exp
                  (subf H
                    (broadcastTo S5000x40
                      (shapeCast S5000x1
                        (multiReduction (F := Ideal) .maximumf [1] S5000 H 0xFF800000#32 reduces_S5000x40_S5000 hφ hmax)
                        shapeCasts_S5000_S5000x1)
                      broadcasts_S5000x1_S5000x40)))
                0x00000000#32 reduces_S5000x40_S5000 hφ hadd)
              shapeCasts_S5000_S5000x1))
          broadcasts_S5000x1_S5000x40)
        (ix2 p q)
      = Sage.lsm (fun j => H (ix2 p j)) q := by
  have hM : ∀ c : Fin 40,
      broadcastTo S5000x40
          (shapeCast S5000x1 (multiReduction (F := Ideal) .maximumf [1] S5000 H 0xFF800000#32 reduces_S5000x40_S5000 hφ hmax)
            shapeCasts_S5000_S5000x1)
          broadcasts_S5000x1_S5000x40 (ix2 p c)
        = Sage.rowMax (fun j => H (ix2 p j)) := fun c => by
    rw [broadcastTo_col_apply, shapeCast_col_apply, rowMax_apply]
  unfold Sage.lsm
  rw [subf_apply, subf_apply, hM q, broadcastTo_col_apply]
  show H (ix2 p q) - Sage.rowMax (fun j => H (ix2 p j)) - Ideal.log (shapeCast S5000x1 _ shapeCasts_S5000_S5000x1 (ix2 p (0 : Fin 1))) = _
  rw [shapeCast_col_apply, rowSum_apply]
  refine congrArg (fun s => H (ix2 p q) - Sage.rowMax (fun j => H (ix2 p j)) - Ideal.log s) ?_
  refine Finset.sum_congr rfl fun c _ => ?_
  show Ideal.exp (subf H _ (ix2 p c)) = _
  rw [subf_apply, hM c]

/-- The last layer's body at entry `(p, q)` of its output block. -/
theorem pay2_apply (x0 x1 : Vec Ideal S5000x64 .f32) (x2 x3 : Vec Ideal S64x40 .f32) (x4 : Vec Ideal S1x40 .f32)
    (p : Fin 5000) (q : Fin 40) :
    k2_pay1 (F := Ideal) x0 x1 x2 x3 x4 (ix2 p q)
      = Sage.lsmOut (fun k => x0 (ix2 p k)) (fun k => x1 (ix2 p k)) (fun k j => x2 (ix2 k j)) (fun k j => x3 (ix2 k j))
          (fun j => x4 (ix2 0 j)) q := by
  unfold k2_pay1
  refine (tail_apply (scores x0 x1 x2 x3 x4) _ _ _ p q).trans ?_
  unfold Sage.lsmOut
  exact congrArg (fun h => Sage.lsm h q) (funext fun j => scores_apply x0 x1 x2 x3 x4 p j)

end Cert.KernelIdeal.PayLsm

end
-- ==== Proof.Region2.lean ====
/-
  The last layer's pallas_call, from blocks to the array.

  Grid point `t` (of 20) reads rows `5000 t … 5000 t + 4999` of the neighbourhood means and of the node features, the two
  64 × 40 weight matrices and the 40-wide bias row whole, and writes rows `5000 t … 5000 t + 4999` of the 40-column output.
  The body's result at entry `(p, q)` of its block is `Sage.lsmOut` of row `p` of the two blocks (the log-softmax runs along
  a row, so a block of whole rows is enough), which is row `5000 t + p` of the arrays: the block written back at point `t`
  is block `t` of `Sage.lsmArr` of the arrays as the call finds them, and the 20 blocks cover the output array.
-/
import proofs.«175299_j15985868276093_1_alg».proof.Proof.Gen.KernelIdeal.Frame
import proofs.«175299_j15985868276093_1_alg».proof.Proof.PayLsm
import proofs.«175299_j15985868276093_1_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, the whole-array windows at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The array row that row `p` of point `t`'s block is. -/
def row (t : Fin cfg2.N) (p : Fin 5000) : Fin 100000 :=
  ⟨5000 * t.val + p.val, by have ht := t.isLt; have h20 : cfg2.N = 20 := N_2; have hp := p.isLt; omega⟩

theorem blk0_apply (c : Dev nD) (t : Fin cfg2.N) (p : Fin 5000) (k : Fin 64) :
    iblk2 V c 0 t (ix2 p k) = V c main_v53 (ix2 (row t p) k) := by
  obtain ⟨e0, e1, -⟩ := idx_facts t
  unfold iblk2
  rw [View.read_apply]
  show V c main_v53 (((cfg2.win 0).blk t).view.emb (ix2 p k)) = V c main_v53 (ix2 (row t p) k)
  refine congrArg (V c main_v53) ?_
  funext a; apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

theorem blk1_apply (c : Dev nD) (t : Fin cfg2.N) (p : Fin 5000) (k : Fin 64) :
    iblk2 V c 1 t (ix2 p k) = V c main_v41 (ix2 (row t p) k) := by
  obtain ⟨-, -, e0, e1, -⟩ := idx_facts t
  unfold iblk2
  rw [View.read_apply]
  show V c main_v41 (((cfg2.win 1).blk t).view.emb (ix2 p k)) = V c main_v41 (ix2 (row t p) k)
  refine congrArg (V c main_v41) ?_
  funext a; apply Fin.ext
  match a with
  | ⟨0, _⟩ => show win2_1.index t (0 : Fin 2) * 5000 + 1 * p.val = 5000 * t.val + p.val; omega
  | ⟨1, _⟩ => show win2_1.index t (1 : Fin 2) * 64 + 1 * k.val = k.val; omega

theorem blk2_apply (c : Dev nD) (t : Fin cfg2.N) (k : Fin 64) (j : Fin 40) :
    iblk2 V c 2 t (ix2 k j) = V c main_arg8 (ix2 k j) := by
  obtain ⟨-, -, -, -, e0, e1, -⟩ := idx_facts t
  unfold iblk2
  rw [View.read_apply]
  show V c main_arg8 (((cfg2.win 2).blk t).view.emb (ix2 k j)) = V c main_arg8 (ix2 k j)
  refine congrArg (V c main_arg8) ?_
  funext a; apply Fin.ext
  match a with
  | ⟨0, _⟩ => show win2_2.index t (0 : Fin 2) * 64 + 1 * k.val = k.val; omega
  | ⟨1, _⟩ => show win2_2.index t (1 : Fin 2) * 40 + 1 * j.val = j.val; omega

theorem blk3_apply (c : Dev nD) (t : Fin cfg2.N) (k : Fin 64) (j : Fin 40) :
    iblk2 V c 3 t (ix2 k j) = V c main_arg9 (ix2 k j) := by
  obtain ⟨-, -, -, -, -, -, e0, e1, -⟩ := idx_facts t
  unfold iblk2
  rw [View.read_apply]
  show V c main_arg9 (((cfg2.win 3).blk t).view.emb (ix2 k j)) = V c main_arg9 (ix2 k j)
  refine congrArg (V c main_arg9) ?_
  funext a; apply Fin.ext
  match a with
  | ⟨0, _⟩ => show win2_3.index t (0 : Fin 2) * 64 + 1 * k.val = k.val; omega
  | ⟨1, _⟩ => show win2_3.index t (1 : Fin 2) * 40 + 1 * j.val = j.val; omega

theorem blk4_apply (c : Dev nD) (t : Fin cfg2.N) (j : Fin 40) :
    iblk2 V c 4 t (ix2 0 j) = V c main_v15 (ix2 0 j) := by
  obtain ⟨-, -, -, -, -, -, -, -, e0, e1, -⟩ := idx_facts t
  unfold iblk2
  rw [View.read_apply]
  show V c main_v15 (((cfg2.win 4).blk t).view.emb (ix2 0 j)) = V c main_v15 (ix2 0 j)
  refine congrArg (V c main_v15) ?_
  funext a; apply Fin.ext
  match a with
  | ⟨0, _⟩ => show win2_4.index t (0 : Fin 2) * 1 + 1 * (0 : Fin 1).val = (0 : Fin 1).val; omega
  | ⟨1, _⟩ => show win2_4.index t (1 : Fin 2) * 40 + 1 * j.val = j.val; omega

theorem emb5_apply (t : Fin cfg2.N) (p : Fin 5000) (q : Fin 40) :
    ((cfg2.win 5).blk t).view.emb (ix2 p q) = ix2 (row t p) q := by
  obtain ⟨-, -, -, -, -, -, -, -, -, -, e0, e1⟩ := idx_facts t
  funext a; apply Fin.ext
  match a with
  | ⟨0, _⟩ => show win2_5.index t (0 : Fin 2) * 5000 + 1 * p.val = 5000 * t.val + p.val; omega
  | ⟨1, _⟩ => show win2_5.index t (1 : Fin 2) * 40 + 1 * q.val = q.val; omega

/-- What point `t` writes back is block `t` of the layer applied to the arrays as the call finds them. -/
theorem flushed_eq (c : Dev nD) (t : Fin cfg2.N) :
    (dat2 V c).flushed 5 t = ((cfg2.win 5).blk t).view.read (Elt Ideal)
      (Sage.lsmArr (V c main_v53) (V c main_v41) (V c main_arg8) (V c main_arg9) (V c main_v15)) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x40) hz, View.ld_unit_zero (S := S1x40) hz]
  funext j
  obtain ⟨p, q, rfl⟩ : ∃ (p : Fin 5000) (q : Fin 40), j = ix2 p q := ⟨j 0, j 1, eq_ix2 j⟩
  show k2_pay1 (iblk2 V c 0 t) (iblk2 V c 1 t) (iblk2 V c 2 t) (iblk2 V c 3 t) (iblk2 V c 4 t) (ix2 p q)
    = Sage.lsmArr (V c main_v53) (V c main_v41) (V c main_arg8) (V c main_arg9) (V c main_v15) (((cfg2.win 5).blk t).view.emb (ix2 p q))
  rw [Cert.KernelIdeal.PayLsm.pay2_apply, emb5_apply, Sage.lsmArr_ix2]
  rw [show (fun k => iblk2 V c 0 t (ix2 p k)) = (fun k => V c main_v53 (ix2 (row t p) k)) from funext fun k => blk0_apply V c t p k,
    show (fun k => iblk2 V c 1 t (ix2 p k)) = (fun k => V c main_v41 (ix2 (row t p) k)) from funext fun k => blk1_apply V c t p k,
    show (fun k j => iblk2 V c 2 t (ix2 k j)) = (fun k j => V c main_arg8 (ix2 k j)) from funext fun k => funext fun j => blk2_apply V c t k j,
    show (fun k j => iblk2 V c 3 t (ix2 k j)) = (fun k j => V c main_arg9 (ix2 k j)) from funext fun k => funext fun j => blk3_apply V c t k j,
    show (fun j => iblk2 V c 4 t (ix2 0 j)) = (fun j => V c main_v15 (ix2 0 j)) from funext fun j => blk4_apply V c t j]

/-- An index of the output array is in point `t`'s block iff its row is among the block's 5000 rows. -/
theorem mem_blk (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v54).slice (win2_5.rect t)).set ↔ _
  rw [View.set_slice_whole, Rect.mem_set_unit]
  exact Iff.rfl

/-- Every index of the output array lies in the block of the point its row selects. -/
theorem cover (i : S100000x40.Idx) : ∃ t : Fin cfg2.N, (cfg2.win 5).flush t = true ∧ i ∈ ((cfg2.win 5).blk t).view.set := by
  have h0 : (i 0).val < 100000 := (i 0).isLt
  have h1 : (i 1).val < 40 := (i 1).isLt
  have h20 : cfg2.N = 20 := N_2
  let t : Fin cfg2.N := ⟨(i 0).val / 5000, by omega⟩
  obtain ⟨-, -, -, -, -, -, -, -, -, -, e0, e1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000
              rw [e0]; show (i 0).val / 5000 * 5000 ≤ (i 0).val ∧ (i 0).val < (i 0).val / 5000 * 5000 + 5000; omega
  | ⟨1, _⟩ => show win2_5.index t (1 : Fin 2) * 40 ≤ (i 1).val ∧ (i 1).val < win2_5.index t (1 : Fin 2) * 40 + 40; omega

/-- After the call the output array holds the layer of the arrays as the call found them. -/
theorem final (c : Dev nD) : (dat2 V c).arrAt 5 cfg2.N
    = Sage.lsmArr (V c main_v53) (V c main_v41) (V c main_arg8) (V c main_arg9) (V c main_v15) :=
  (dat2 V c).arrAt_eq_of_cover 5 _ (fun t _ => flushed_eq V c t) cover

end Cert.KernelIdeal.Region2

end
-- ==== Proof.KernelValue.lean ====
/-
  The kernel's program, read from its last boundary back to its arguments.

  The program is three pallas_calls with host arithmetic before each. Walking the buffer contents back from the result:
  the last call leaves `Sage.lsmArr` of the arrays it finds; those are the neighbourhood mean of the second call's result,
  that result itself, and two weight matrices and a reshaped bias that nothing has written since the launch; the second
  call's result is `Sage.reluArr` of the mean of the first call's result, that result, and its own weights and bias; and
  so once more down to the node features. The edge list's two rows and the degree column are computed once, before the
  first call, and no later operation or call writes them.
-/
import proofs.«175299_j15985868276093_1_alg».proof.Proof.Gen.KernelIdeal.Frame
import proofs.«175299_j15985868276093_1_alg».proof.Proof.KLayers
import proofs.«175299_j15985868276093_1_alg».proof.Proof.Region0
import proofs.«175299_j15985868276093_1_alg».proof.Proof.Region1
import proofs.«175299_j15985868276093_1_alg».proof.Proof.Region2
import proofs.«175299_j15985868276093_1_alg».proof.Proof.Spec
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.KLayers

variable (m : (ℓ : Loc nD τ sig) → Buf (Elt Ideal) ℓ) (ρ : Dev nD → PrngReg)

/-! ## The values -/

/-- The node features and the edge list at launch. -/
abbrev aX (c : Dev nD) : FVec Ideal S100000x64 .f32 := m ((c : Thread nD τ).loc main_arg0)
abbrev aE (c : Dev nD) : IVec S2x1250000 32 := m ((c : Thread nD τ).loc main_arg1)
/-- The three biases as one-row matrices. -/
abbrev b2d0 (c : Dev nD) : FVec Ideal S1x64 .f32 := shapeCast S1x64 (m ((c : Thread nD τ).loc main_arg4)) shapeCasts_S64_S1x64
abbrev b2d1 (c : Dev nD) : FVec Ideal S1x64 .f32 := shapeCast S1x64 (m ((c : Thread nD τ).loc main_arg7)) shapeCasts_S64_S1x64
abbrev b2d2 (c : Dev nD) : FVec Ideal S1x40 .f32 := shapeCast S1x40 (m ((c : Thread nD τ).loc main_arg10)) shapeCasts_S40_S1x40

/-- The first hidden layer's result. -/
def h0 (c : Dev nD) : FVec Ideal S100000x64 .f32 :=
  Sage.reluArr (agg (F := Ideal) (aE m c) (aX m c)) (aX m c) (m ((c : Thread nD τ).loc main_arg2)) (m ((c : Thread nD τ).loc main_arg3)) (b2d0 m c)
/-- The second hidden layer's result. -/
def h1 (c : Dev nD) : FVec Ideal S100000x64 .f32 :=
  Sage.reluArr (agg (F := Ideal) (aE m c) (h0 m c)) (h0 m c) (m ((c : Thread nD τ).loc main_arg5)) (m ((c : Thread nD τ).loc main_arg6)) (b2d1 m c)
/-- The program's result. -/
def out (c : Dev nD) : FVec Ideal S100000x40 .f32 :=
  Sage.lsmArr (agg (F := Ideal) (aE m c) (h1 m c)) (h1 m c) (m ((c : Thread nD τ).loc main_arg8)) (m ((c : Thread nD τ).loc main_arg9)) (b2d2 m c)

/-! ## Before the first call: the host arithmetic over the launch contents -/

theorem W1_v1 (c : Dev nD) : W1 m ρ c (Proc.devRef .tc main_v1) = dstRow (aE m c) := by
  show StableHlo.after hostOps0 (W0 m ρ c) (Proc.devRef .tc main_v1) = _
  after_results_simp <;> rfl
theorem W1_v3 (c : Dev nD) : W1 m ρ c (Proc.devRef .tc main_v3) = srcRow (aE m c) := by
  show StableHlo.after hostOps0 (W0 m ρ c) (Proc.devRef .tc main_v3) = _
  after_results_simp <;> rfl
theorem W1_v12 (c : Dev nD) : W1 m ρ c (Proc.devRef .tc main_v12) = degInvCol (F := Ideal) (dstRow (aE m c)) := by
  show StableHlo.after hostOps0 (W0 m ρ c) (Proc.devRef .tc main_v12) = _
  after_results_simp <;> rfl
theorem W1_v13 (c : Dev nD) : W1 m ρ c (Proc.devRef .tc main_v13) = b2d0 m c := by
  show StableHlo.after hostOps0 (W0 m ρ c) (Proc.devRef .tc main_v13) = _
  after_results_simp <;> rfl
theorem W1_v14 (c : Dev nD) : W1 m ρ c (Proc.devRef .tc main_v14) = b2d1 m c := by
  show StableHlo.after hostOps0 (W0 m ρ c) (Proc.devRef .tc main_v14) = _
  after_results_simp <;> rfl
theorem W1_v15 (c : Dev nD) : W1 m ρ c (Proc.devRef .tc main_v15) = b2d2 m c := by
  show StableHlo.after hostOps0 (W0 m ρ c) (Proc.devRef .tc main_v15) = _
  after_results_simp <;> rfl
theorem W1_arg0 (c : Dev nD) : W1 m ρ c (Proc.devRef .tc main_arg0) = aX m c := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W1_v27 (c : Dev nD) : W1 m ρ c (Proc.devRef .tc main_v27) = agg (F := Ideal) (aE m c) (aX m c) := by
  show StableHlo.after hostOps0 (W0 m ρ c) (Proc.devRef .tc main_v27) = _
  after_results_simp <;> rfl

/-! ## The first call, and what it leaves untouched -/

theorem W2_v28 (c : Dev nD) : W2 m ρ c (Proc.devRef .tc main_v28) = h0 m c := by
  refine (W2_arr m ρ c 5).trans ((Region0.final (V1 m ρ) c).trans ?_)
  show Sage.reluArr (W1 m ρ c (Proc.devRef .tc main_v27)) (W1 m ρ c (Proc.devRef .tc main_arg0)) (W1 m ρ c (Proc.devRef .tc main_arg2))
    (W1 m ρ c (Proc.devRef .tc main_arg3)) (W1 m ρ c (Proc.devRef .tc main_v13)) = _
  rw [W1_v27, W1_arg0, W1_arg2, W1_arg3, W1_v13]
  rfl
theorem W2_v1 (c : Dev nD) : W2 m ρ c (Proc.devRef .tc main_v1) = dstRow (aE m c) :=
  (W2_of_ne m ρ c main_v1 (by decide)).trans (W1_v1 m ρ c)
theorem W2_v3 (c : Dev nD) : W2 m ρ c (Proc.devRef .tc main_v3) = srcRow (aE m c) :=
  (W2_of_ne m ρ c main_v3 (by decide)).trans (W1_v3 m ρ c)
theorem W2_v12 (c : Dev nD) : W2 m ρ c (Proc.devRef .tc main_v12) = degInvCol (F := Ideal) (dstRow (aE m c)) :=
  (W2_of_ne m ρ c main_v12 (by decide)).trans (W1_v12 m ρ c)
theorem W2_v14 (c : Dev nD) : W2 m ρ c (Proc.devRef .tc main_v14) = b2d1 m c :=
  (W2_of_ne m ρ c main_v14 (by decide)).trans (W1_v14 m ρ c)
theorem W2_v15 (c : Dev nD) : W2 m ρ c (Proc.devRef .tc main_v15) = b2d2 m c :=
  (W2_of_ne m ρ c main_v15 (by decide)).trans (W1_v15 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)

/-! ## Before the second call -/

theorem W3_v1 (c : Dev nD) : W3 m ρ c (Proc.devRef .tc main_v1) = dstRow (aE m c) :=
  (by show StableHlo.after hostOps1 (W2 m ρ c) (Proc.devRef .tc main_v1) = _; after_results_simp <;> rfl : W3 m ρ c (Proc.devRef .tc main_v1) = W2 m ρ c (Proc.devRef .tc main_v1)).trans (W2_v1 m ρ c)
theorem W3_v3 (c : Dev nD) : W3 m ρ c (Proc.devRef .tc main_v3) = srcRow (aE m c) :=
  (by show StableHlo.after hostOps1 (W2 m ρ c) (Proc.devRef .tc main_v3) = _; after_results_simp <;> rfl : W3 m ρ c (Proc.devRef .tc main_v3) = W2 m ρ c (Proc.devRef .tc main_v3)).trans (W2_v3 m ρ c)
theorem W3_v12 (c : Dev nD) : W3 m ρ c (Proc.devRef .tc main_v12) = degInvCol (F := Ideal) (dstRow (aE m c)) :=
  (by show StableHlo.after hostOps1 (W2 m ρ c) (Proc.devRef .tc main_v12) = _; after_results_simp <;> rfl : W3 m ρ c (Proc.devRef .tc main_v12) = W2 m ρ c (Proc.devRef .tc main_v12)).trans (W2_v12 m ρ c)
theorem W3_v14 (c : Dev nD) : W3 m ρ c (Proc.devRef .tc main_v14) = b2d1 m c :=
  (by show StableHlo.after hostOps1 (W2 m ρ c) (Proc.devRef .tc main_v14) = _; after_results_simp <;> rfl : W3 m ρ c (Proc.devRef .tc main_v14) = W2 m ρ c (Proc.devRef .tc main_v14)).trans (W2_v14 m ρ c)
theorem W3_v15 (c : Dev nD) : W3 m ρ c (Proc.devRef .tc main_v15) = b2d2 m c :=
  (by show StableHlo.after hostOps1 (W2 m ρ c) (Proc.devRef .tc main_v15) = _; after_results_simp <;> rfl : W3 m ρ c (Proc.devRef .tc main_v15) = W2 m ρ c (Proc.devRef .tc main_v15)).trans (W2_v15 m ρ c)
theorem W3_arg5 (c : Dev nD) : W3 m ρ c (Proc.devRef .tc main_arg5) = m ((c : Thread nD τ).loc main_arg5) :=
  (by show StableHlo.after hostOps1 (W2 m ρ c) (Proc.devRef .tc main_arg5) = _; after_results_simp <;> rfl : W3 m ρ c (Proc.devRef .tc main_arg5) = W2 m ρ c (Proc.devRef .tc main_arg5)).trans (W2_arg5 m ρ c)
theorem W3_arg6 (c : Dev nD) : W3 m ρ c (Proc.devRef .tc main_arg6) = m ((c : Thread nD τ).loc main_arg6) :=
  (by show StableHlo.after hostOps1 (W2 m ρ c) (Proc.devRef .tc main_arg6) = _; after_results_simp <;> rfl : W3 m ρ c (Proc.devRef .tc main_arg6) = W2 m ρ c (Proc.devRef .tc main_arg6)).trans (W2_arg6 m ρ c)
theorem W3_arg8 (c : Dev nD) : W3 m ρ c (Proc.devRef .tc main_arg8) = m ((c : Thread nD τ).loc main_arg8) :=
  (by show StableHlo.after hostOps1 (W2 m ρ c) (Proc.devRef .tc main_arg8) = _; after_results_simp <;> rfl : W3 m ρ c (Proc.devRef .tc main_arg8) = W2 m ρ c (Proc.devRef .tc main_arg8)).trans (W2_arg8 m ρ c)
theorem W3_arg9 (c : Dev nD) : W3 m ρ c (Proc.devRef .tc main_arg9) = m ((c : Thread nD τ).loc main_arg9) :=
  (by show StableHlo.after hostOps1 (W2 m ρ c) (Proc.devRef .tc main_arg9) = _; after_results_simp <;> rfl : W3 m ρ c (Proc.devRef .tc main_arg9) = W2 m ρ c (Proc.devRef .tc main_arg9)).trans (W2_arg9 m ρ c)
theorem W3_v28 (c : Dev nD) : W3 m ρ c (Proc.devRef .tc main_v28) = h0 m c :=
  (by show StableHlo.after hostOps1 (W2 m ρ c) (Proc.devRef .tc main_v28) = _; after_results_simp <;> rfl : W3 m ρ c (Proc.devRef .tc main_v28) = W2 m ρ c (Proc.devRef .tc main_v28)).trans (W2_v28 m ρ c)
theorem W3_v40 (c : Dev nD) : W3 m ρ c (Proc.devRef .tc main_v40) = agg (F := Ideal) (aE m c) (h0 m c) := by
  show StableHlo.after hostOps1 (W2 m ρ c) (Proc.devRef .tc main_v40) = _
  after_results_simp
  rw [W2_v28, W2_v1, W2_v3, W2_v12]
  rfl

/-! ## The second call, and what it leaves untouched -/

theorem W4_v41 (c : Dev nD) : W4 m ρ c (Proc.devRef .tc main_v41) = h1 m c := by
  refine (W4_arr m ρ c 5).trans ((Region1.final (V3 m ρ) c).trans ?_)
  show Sage.reluArr (W3 m ρ c (Proc.devRef .tc main_v40)) (W3 m ρ c (Proc.devRef .tc main_v28)) (W3 m ρ c (Proc.devRef .tc main_arg5))
    (W3 m ρ c (Proc.devRef .tc main_arg6)) (W3 m ρ c (Proc.devRef .tc main_v14)) = _
  rw [W3_v40, W3_v28, W3_arg5, W3_arg6, W3_v14]
  rfl
theorem W4_v1 (c : Dev nD) : W4 m ρ c (Proc.devRef .tc main_v1) = dstRow (aE m c) :=
  (W4_of_ne m ρ c main_v1 (by decide)).trans (W3_v1 m ρ c)
theorem W4_v3 (c : Dev nD) : W4 m ρ c (Proc.devRef .tc main_v3) = srcRow (aE m c) :=
  (W4_of_ne m ρ c main_v3 (by decide)).trans (W3_v3 m ρ c)
theorem W4_v12 (c : Dev nD) : W4 m ρ c (Proc.devRef .tc main_v12) = degInvCol (F := Ideal) (dstRow (aE m c)) :=
  (W4_of_ne m ρ c main_v12 (by decide)).trans (W3_v12 m ρ c)
theorem W4_v15 (c : Dev nD) : W4 m ρ c (Proc.devRef .tc main_v15) = b2d2 m c :=
  (W4_of_ne m ρ c main_v15 (by decide)).trans (W3_v15 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)

/-! ## Before the last call -/

theorem W5_v15 (c : Dev nD) : W5 m ρ c (Proc.devRef .tc main_v15) = b2d2 m c :=
  (by show StableHlo.after hostOps2 (W4 m ρ c) (Proc.devRef .tc main_v15) = _; after_results_simp <;> rfl : W5 m ρ c (Proc.devRef .tc main_v15) = W4 m ρ c (Proc.devRef .tc main_v15)).trans (W4_v15 m ρ c)
theorem W5_arg8 (c : Dev nD) : W5 m ρ c (Proc.devRef .tc main_arg8) = m ((c : Thread nD τ).loc main_arg8) :=
  (by show StableHlo.after hostOps2 (W4 m ρ c) (Proc.devRef .tc main_arg8) = _; after_results_simp <;> rfl : W5 m ρ c (Proc.devRef .tc main_arg8) = W4 m ρ c (Proc.devRef .tc main_arg8)).trans (W4_arg8 m ρ c)
theorem W5_arg9 (c : Dev nD) : W5 m ρ c (Proc.devRef .tc main_arg9) = m ((c : Thread nD τ).loc main_arg9) :=
  (by show StableHlo.after hostOps2 (W4 m ρ c) (Proc.devRef .tc main_arg9) = _; after_results_simp <;> rfl : W5 m ρ c (Proc.devRef .tc main_arg9) = W4 m ρ c (Proc.devRef .tc main_arg9)).trans (W4_arg9 m ρ c)
theorem W5_v41 (c : Dev nD) : W5 m ρ c (Proc.devRef .tc main_v41) = h1 m c :=
  (by show StableHlo.after hostOps2 (W4 m ρ c) (Proc.devRef .tc main_v41) = _; after_results_simp <;> rfl : W5 m ρ c (Proc.devRef .tc main_v41) = W4 m ρ c (Proc.devRef .tc main_v41)).trans (W4_v41 m ρ c)
theorem W5_v53 (c : Dev nD) : W5 m ρ c (Proc.devRef .tc main_v53) = agg (F := Ideal) (aE m c) (h1 m c) := by
  show StableHlo.after hostOps2 (W4 m ρ c) (Proc.devRef .tc main_v53) = _
  after_results_simp
  rw [W4_v41, W4_v1, W4_v3, W4_v12]
  rfl

/-! ## The last call -/

/-- At the last boundary the result buffer holds the three layers of the launch contents. -/
theorem result_eq (c : Dev nD) : W6 m ρ c (Proc.devRef .tc main_v54) = out m c := by
  refine (W6_arr m ρ c 5).trans ((Region2.final (V5 m ρ) c).trans ?_)
  show Sage.lsmArr (W5 m ρ c (Proc.devRef .tc main_v53)) (W5 m ρ c (Proc.devRef .tc main_v41)) (W5 m ρ c (Proc.devRef .tc main_arg8))
    (W5 m ρ c (Proc.devRef .tc main_arg9)) (W5 m ρ c (Proc.devRef .tc main_v15)) = _
  rw [W5_v53, W5_v41, W5_arg8, W5_arg9, W5_v15]
  rfl

end Cert.KernelIdeal.KValue

end
-- ==== Proof.RefChunks.lean ====
/-
  The reference program's operations in consecutive stretches: through the first hidden layer's result, through the
  second's, the last layer's affine part, and the closing log-softmax in seven short runs (one per value it names).
  Their concatenation is the program's operation list.
-/
import proofs.«175299_j15985868276093_1_alg».proof.Proof.RefOps

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The edge rows, the degree column, the first neighbourhood mean and the first hidden layer. -/
abbrev opsA : List (HloOp τ sig (Elt F)) :=
  [ unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    nullary main_cst (constant S_ .f32 0x3F800000#32),
    unary main_cst main_v4 (broadcastInDim S1250000 ![] bcast_S_S1250000 : (⟨S_, .f32⟩ : BufTy).Contents (Elt F) → (⟨S1250000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1250000x1 ![0] bcast_S1250000_S1250000x1_0 : (⟨S1250000, .i32⟩ : BufTy).Contents (Elt F) → (⟨S1250000x1, .i32⟩ : BufTy).Contents (Elt F)),
    ternary main_v5 main_v6 main_v4 main_v7 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    unary main_v11 main_v12 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v13 (broadcastInDim S1250000 ![] bcast_S_S1250000 : (⟨S_, .i32⟩ : BufTy).Contents (Elt F) → (⟨S1250000, .i32⟩ : BufTy).Contents (Elt F)),
    binary main_v3 main_v13 main_v14 (cmpi .slt : (⟨S1250000, .i32⟩ : BufTy).Contents (Elt F) → (⟨S1250000, .i32⟩ : BufTy).Contents (Elt F) → (⟨S1250000, .i1⟩ : BufTy).Contents (Elt F)),
    nullary main_c_3 (constantI S_ 32 100000#32),
    unary main_c_3 main_v15 (broadcastInDim S1250000 ![] bcast_S_S1250000 : (⟨S_, .i32⟩ : BufTy).Contents (Elt F) → (⟨S1250000, .i32⟩ : BufTy).Contents (Elt F)),
    binary main_v3 main_v15 main_v16 (addi : (⟨S1250000, .i32⟩ : BufTy).Contents (Elt F) → (⟨S1250000, .i32⟩ : BufTy).Contents (Elt F) → (⟨S1250000, .i32⟩ : BufTy).Contents (Elt F)),
    ternary main_v14 main_v16 main_v3 main_v17 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v17 main_v18 (broadcastInDim S1250000x1 ![0] bcast_S1250000_S1250000x1_0 : (⟨S1250000, .i32⟩ : BufTy).Contents (Elt F) → (⟨S1250000x1, .i32⟩ : BufTy).Contents (Elt F)),
    binary main_arg0 main_v18 main_v19 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_4 (constant S_ .f32 0x00000000#32),
    unary main_cst_4 main_v20 (broadcastInDim S100000x64 ![] bcast_S_S100000x64 : (⟨S_, .f32⟩ : BufTy).Contents (Elt F) → (⟨S100000x64, .f32⟩ : BufTy).Contents (Elt F)),
    unary main_v1 main_v21 (broadcastInDim S1250000x1 ![0] bcast_S1250000_S1250000x1_0 : (⟨S1250000, .i32⟩ : BufTy).Contents (Elt F) → (⟨S1250000x1, .i32⟩ : BufTy).Contents (Elt F)),
    ternary main_v20 main_v21 main_v19 main_v22 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    unary main_v12 main_v23 (broadcastInDim S100000x64 ![0, 1] bcast_S100000x1_S100000x64_0_1 : (⟨S100000x1, .f32⟩ : BufTy).Contents (Elt F) → (⟨S100000x64, .f32⟩ : BufTy).Contents (Elt F)),
    binary main_v22 main_v23 main_v24 (mulf : (⟨S100000x64, .f32⟩ : BufTy).Contents (Elt F) → (⟨S100000x64, .f32⟩ : BufTy).Contents (Elt F) → (⟨S100000x64, .f32⟩ : BufTy).Contents (Elt F)),
    binary main_v24 main_arg2 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v25 main_v27 main_v28 (addf : (⟨S100000x64, .f32⟩ : BufTy).Contents (Elt F) → (⟨S100000x64, .f32⟩ : BufTy).Contents (Elt F) → (⟨S100000x64, .f32⟩ : BufTy).Contents (Elt F)),
    binary main_arg0 main_arg3 main_v29 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v28 main_v29 main_v30 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v30) (TRef.of (T := ⟨S100000x64, .f32⟩) main_call0_v0) (TRef.of (T := ⟨S100000x64, .f32⟩) main_v31) maximumf ]

/-- The second neighbourhood mean and the second hidden layer. -/
abbrev opsB : List (HloOp τ sig (Elt F)) :=
  [ nullary main_c_5 (constantI S_ 32 0#32),
    unary main_c_5 main_v32 (broadcastInDim S1250000 ![] bcast_S_S1250000 : (⟨S_, .i32⟩ : BufTy).Contents (Elt F) → (⟨S1250000, .i32⟩ : BufTy).Contents (Elt F)),
    binary main_v3 main_v32 main_v33 (cmpi .slt : (⟨S1250000, .i32⟩ : BufTy).Contents (Elt F) → (⟨S1250000, .i32⟩ : BufTy).Contents (Elt F) → (⟨S1250000, .i1⟩ : BufTy).Contents (Elt F)),
    nullary main_c_6 (constantI S_ 32 100000#32),
    unary main_c_6 main_v34 (broadcastInDim S1250000 ![] bcast_S_S1250000 : (⟨S_, .i32⟩ : BufTy).Contents (Elt F) → (⟨S1250000, .i32⟩ : BufTy).Contents (Elt F)),
    binary main_v3 main_v34 main_v35 (addi : (⟨S1250000, .i32⟩ : BufTy).Contents (Elt F) → (⟨S1250000, .i32⟩ : BufTy).Contents (Elt F) → (⟨S1250000, .i32⟩ : BufTy).Contents (Elt F)),
    ternary main_v33 main_v35 main_v3 main_v36 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v36 main_v37 (broadcastInDim S1250000x1 ![0] bcast_S1250000_S1250000x1_0 : (⟨S1250000, .i32⟩ : BufTy).Contents (Elt F) → (⟨S1250000x1, .i32⟩ : BufTy).Contents (Elt F)),
    binary main_v31 main_v37 main_v38 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_7 (constant S_ .f32 0x00000000#32),
    unary main_cst_7 main_v39 (broadcastInDim S100000x64 ![] bcast_S_S100000x64 : (⟨S_, .f32⟩ : BufTy).Contents (Elt F) → (⟨S100000x64, .f32⟩ : BufTy).Contents (Elt F)),
    unary main_v1 main_v40 (broadcastInDim S1250000x1 ![0] bcast_S1250000_S1250000x1_0 : (⟨S1250000, .i32⟩ : BufTy).Contents (Elt F) → (⟨S1250000x1, .i32⟩ : BufTy).Contents (Elt F)),
    ternary main_v39 main_v40 main_v38 main_v41 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    unary main_v12 main_v42 (broadcastInDim S100000x64 ![0, 1] bcast_S100000x1_S100000x64_0_1 : (⟨S100000x1, .f32⟩ : BufTy).Contents (Elt F) → (⟨S100000x64, .f32⟩ : BufTy).Contents (Elt F)),
    binary main_v41 main_v42 main_v43 (mulf : (⟨S100000x64, .f32⟩ : BufTy).Contents (Elt F) → (⟨S100000x64, .f32⟩ : BufTy).Contents (Elt F) → (⟨S100000x64, .f32⟩ : BufTy).Contents (Elt F)),
    binary main_v43 main_arg5 main_v44 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    binary main_v31 main_arg6 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v47 main_v48 main_v49 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v49) (TRef.of (T := ⟨S100000x64, .f32⟩) main_call1_v0) (TRef.of (T := ⟨S100000x64, .f32⟩) main_v50) maximumf ]

/-- The third neighbourhood mean and the last layer's affine part. -/
abbrev opsC : List (HloOp τ sig (Elt F)) :=
  [ nullary main_c_8 (constantI S_ 32 0#32),
    unary main_c_8 main_v51 (broadcastInDim S1250000 ![] bcast_S_S1250000 : (⟨S_, .i32⟩ : BufTy).Contents (Elt F) → (⟨S1250000, .i32⟩ : BufTy).Contents (Elt F)),
    binary main_v3 main_v51 main_v52 (cmpi .slt : (⟨S1250000, .i32⟩ : BufTy).Contents (Elt F) → (⟨S1250000, .i32⟩ : BufTy).Contents (Elt F) → (⟨S1250000, .i1⟩ : BufTy).Contents (Elt F)),
    nullary main_c_9 (constantI S_ 32 100000#32),
    unary main_c_9 main_v53 (broadcastInDim S1250000 ![] bcast_S_S1250000 : (⟨S_, .i32⟩ : BufTy).Contents (Elt F) → (⟨S1250000, .i32⟩ : BufTy).Contents (Elt F)),
    binary main_v3 main_v53 main_v54 (addi : (⟨S1250000, .i32⟩ : BufTy).Contents (Elt F) → (⟨S1250000, .i32⟩ : BufTy).Contents (Elt F) → (⟨S1250000, .i32⟩ : BufTy).Contents (Elt F)),
    ternary main_v52 main_v54 main_v3 main_v55 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v55 main_v56 (broadcastInDim S1250000x1 ![0] bcast_S1250000_S1250000x1_0 : (⟨S1250000, .i32⟩ : BufTy).Contents (Elt F) → (⟨S1250000x1, .i32⟩ : BufTy).Contents (Elt F)),
    binary main_v50 main_v56 main_v57 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_10 (constant S_ .f32 0x00000000#32),
    unary main_cst_10 main_v58 (broadcastInDim S100000x64 ![] bcast_S_S100000x64 : (⟨S_, .f32⟩ : BufTy).Contents (Elt F) → (⟨S100000x64, .f32⟩ : BufTy).Contents (Elt F)),
    unary main_v1 main_v59 (broadcastInDim S1250000x1 ![0] bcast_S1250000_S1250000x1_0 : (⟨S1250000, .i32⟩ : BufTy).Contents (Elt F) → (⟨S1250000x1, .i32⟩ : BufTy).Contents (Elt F)),
    ternary main_v58 main_v59 main_v57 main_v60 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    unary main_v12 main_v61 (broadcastInDim S100000x64 ![0, 1] bcast_S100000x1_S100000x64_0_1 : (⟨S100000x1, .f32⟩ : BufTy).Contents (Elt F) → (⟨S100000x64, .f32⟩ : BufTy).Contents (Elt F)),
    binary main_v60 main_v61 main_v62 (mulf : (⟨S100000x64, .f32⟩ : BufTy).Contents (Elt F) → (⟨S100000x64, .f32⟩ : BufTy).Contents (Elt F) → (⟨S100000x64, .f32⟩ : BufTy).Contents (Elt F)),
    binary main_v62 main_arg8 main_v63 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg10 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)),
    binary main_v50 main_arg9 main_v67 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v66 main_v67 main_v68 (addf : (⟨S100000x40, .f32⟩ : BufTy).Contents (Elt F) → (⟨S100000x40, .f32⟩ : BufTy).Contents (Elt F) → (⟨S100000x40, .f32⟩ : BufTy).Contents (Elt F)) ]

/-- The log-softmax: every row's maximum from minus infinity. -/
abbrev opsD1 : List (HloOp τ sig (Elt F)) :=
  [ TRef.nullary (TRef.of (T := ⟨S_, .f32⟩) main_call2_cst) (constant S_ .f32 0xFF800000#32),
    TRef.binary (TRef.of (T := ⟨S100000x40, .f32⟩) main_v68) (TRef.of (T := ⟨S_, .f32⟩) main_call2_cst) (TRef.of (T := ⟨S100000, .f32⟩) main_call2_v0) (fun x v => Host.reduce FloatOps.maximumf x v reducesTo_S100000x40_S100000_d1 h_S_) ]

/-- The log-softmax: that maximum taken once more against minus infinity. -/
abbrev opsD2 : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- The log-softmax: the maximum as a column, repeated along the classes. -/
abbrev opsD3 : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1) ]

/-- The log-softmax: the scores shifted by the maximum, and their exponentials. -/
abbrev opsD4 : List (HloOp τ sig (Elt F)) :=
  [ TRef.binary (TRef.of (T := ⟨S100000x40, .f32⟩) main_v68) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp ]

/-- The log-softmax: every row's sum of exponentials. -/
abbrev opsD5 : List (HloOp τ sig (Elt F)) :=
  [ TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_) ]

/-- The log-softmax: the logarithm of the sum as a column, repeated along the classes. -/
abbrev opsD6 : List (HloOp τ sig (Elt F)) :=
  [ TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1) ]

/-- The log-softmax: the shifted scores less the logarithm. -/
abbrev opsD7 : List (HloOp τ sig (Elt F)) :=
  [ TRef.binary (TRef.of (T := ⟨S100000x40, .f32⟩) main_call2_v5) (TRef.of (T := ⟨S100000x40, .f32⟩) main_call2_v10) (TRef.of (T := ⟨S100000x40, .f32⟩) main_v69) subf ]

/-- The stretches in order are the program's operations. -/
theorem ops_eq : (ops : List (HloOp τ sig (Elt F))) = opsA ++ (opsB ++ (opsC ++ (opsD1 ++ (opsD2 ++ (opsD3 ++ (opsD4 ++ (opsD5 ++ (opsD6 ++ opsD7)))))))) := rfl

end Cert.ReferenceIdeal.RunP

end
-- ==== Proof.RefLayers.lean ====
/-
  The reference program's arithmetic, cut where its mathematics cuts: the neighbourhood mean (`agg`), a hidden layer
  (`relu`), the last layer's affine part (`lin2`) and the log-softmax (`lsm`), each the very operations the program applies.

  `agg e h`: for every edge (dst, src) add row `src` of `h` into row `dst`, then scale row `r` by `1 / max (deg r) 1`.
  `relu a x wl wr b = max ((a·wl + b) + x·wr) 0`; at an entry it is `Sage.reluOut`: the two sums and the bias are added in
  another order, and addition of extended reals is commutative and associative.
  `lsm (lin2 a x wl wr b)` at an entry is `Sage.lsmOut`: the reduction's maximum against −∞ is the maximum.
-/
import proofs.«175299_j15985868276093_1_alg».proof.Proof.Gen.ReferenceIdeal
import proofs.«175299_j15985868276093_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost

noncomputable section

namespace Cert.RefLayers

open Idealize.ShloMosaic Idealize.ShloMosaic.ValueIdx Cert.ReferenceIdeal Cert.ReferenceIdeal.Gen

variable {F : FTy → Type} [FloatOps F]

/-- The all-zero node array the scatter-add starts from. -/
def zeros64 : FVec F S100000x64 .f32 := broadcastInDim S100000x64 ![] bcast_S_S100000x64 (constant S_ .f32 0x00000000#32)

/-- The destination node of every edge, as a one-column index array. -/
def dstIx (e : IVec S2x1250000 32) : IVec S1250000x1 32 :=
  broadcastInDim S1250000x1 ![0] bcast_S1250000_S1250000x1_0 (shapeCast _ (extractStridedSlice S1x1250000 ![0, 0] e slices_S2x1250000_S1x1250000_0_0) shapeCasts_S1x1250000_S1250000)

/-- The source node of every edge. -/
def srcRow (e : IVec S2x1250000 32) : IVec S1250000 32 :=
  shapeCast _ (extractStridedSlice S1x1250000 ![1, 0] e slices_S2x1250000_S1x1250000_1_0) shapeCasts_S1x1250000_S1250000

/-- The source node of every edge with a negative index wrapped, as a one-column index array. -/
def srcIx (e : IVec S2x1250000 32) : IVec S1250000x1 32 :=
  broadcastInDim S1250000x1 ![0] bcast_S1250000_S1250000x1_0
    (select (cmpi .slt (srcRow e) (broadcastInDim S1250000 ![] bcast_S_S1250000 (constantI S_ 32 0#32)))
      (addi (srcRow e) (broadcastInDim S1250000 ![] bcast_S_S1250000 (constantI S_ 32 100000#32))) (srcRow e))

/-- `1 / max (in-degree) 1` of every node, repeated along the 64 features. -/
def degInv (e : IVec S2x1250000 32) : FVec F S100000x64 .f32 :=
  broadcastInDim S100000x64 ![0, 1] bcast_S100000x1_S100000x64_0_1
    (broadcastInDim S100000x1 ![0] bcast_S100000_S100000x1_0
      (Host.divf (broadcastInDim S100000 ![] bcast_S_S100000 (constant S_ .f32 0x3F800000#32))
        (maximumf (Host.scatterAdd scatter_S100000_S1250000x1_S1250000_n_0_0_1 (broadcastInDim S100000 ![] bcast_S_S100000 (constant S_ .f32 0x00000000#32)) (dstIx e) (broadcastInDim S1250000 ![] bcast_S_S1250000 (constant S_ .f32 0x3F800000#32)))
          (broadcastInDim S100000 ![] bcast_S_S100000 (constant S_ .f32 0x3F800000#32)))))

/-- The neighbourhood mean of a node array. -/
def agg (e : IVec S2x1250000 32) (h : FVec F S100000x64 .f32) : FVec F S100000x64 .f32 :=
  mulf (Host.scatterAdd scatter_S100000x64_S1250000x1_S1250000x64_1_0_0_1 zeros64 (dstIx e)
      (Host.gather gather_S100000x64_S1250000x1_S1250000x64_1_0_n_n_0_1_164 h (srcIx e))) (degInv e)

/-- A hidden layer as the reference computes it. -/
def relu (a x : FVec F S100000x64 .f32) (wl wr : FVec F S64x64 .f32) (b : FVec F S64 .f32) : FVec F S100000x64 .f32 :=
  maximumf (addf (addf (Host.dotGeneral dot_S100000x64_S64x64_S100000x64_1_0_0_1_n_n none a wl)
      (broadcastInDim S100000x64 ![0, 1] bcast_S1x64_S100000x64_0_1 (broadcastInDim S1x64 ![1] bcast_S64_S1x64_1 b)))
    (Host.dotGeneral dot_S100000x64_S64x64_S100000x64_1_0_0_1_n_n none x wr)) zeros64

/-- The last layer's affine part as the reference computes it. -/
def lin2 (a x : FVec F S100000x64 .f32) (wl wr : FVec F S64x40 .f32) (b : FVec F S40 .f32) : FVec F S100000x40 .f32 :=
  addf (addf (Host.dotGeneral dot_S100000x64_S64x40_S100000x40_1_0_0_1_n_n none a wl)
      (broadcastInDim S100000x40 ![0, 1] bcast_S1x40_S100000x40_0_1 (broadcastInDim S1x40 ![1] bcast_S40_S1x40_1 b)))
    (Host.dotGeneral dot_S100000x64_S64x40_S100000x40_1_0_0_1_n_n none x wr)

/-- Every row's maximum, repeated along the 40 classes. -/
def rowMaxB (h : FVec F S100000x40 .f32) : FVec F S100000x40 .f32 :=
  broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (Host.reduce FloatOps.maximumf h (constant S_ .f32 0xFF800000#32) reducesTo_S100000x40_S100000_d1 h_S_)))

/-- The log-softmax of every row as the reference computes it. -/
def lsm (h : FVec F S100000x40 .f32) : FVec F S100000x40 .f32 :=
  subf (subf h (rowMaxB h))
    (broadcastInDim S100000x40 ![0, 1] bcast_S100000x1_S100000x40_0_1
      (Host.log (broadcastInDim S100000x1 ![0] bcast_S100000_S100000x1_0
        (Host.reduceAdd (Host.exp (subf h (rowMaxB h))) (constant S_ .f32 0x00000000#32) reducesTo_S100000x40_S100000_d1 h_S_))))

/-- The whole reference: three layers over the same edges. -/
def result (x : FVec F S100000x64 .f32) (e : IVec S2x1250000 32) (w2 w3 : FVec F S64x64 .f32) (b4 : FVec F S64 .f32)
    (w5 w6 : FVec F S64x64 .f32) (b7 : FVec F S64 .f32) (w8 w9 : FVec F S64x40 .f32) (b10 : FVec F S40 .f32) : FVec F S100000x40 .f32 :=
  lsm (lin2 (agg e (relu (agg e (relu (agg e x) x w2 w3 b4)) (relu (agg e x) x w2 w3 b4) w5 w6 b7))
    (relu (agg e (relu (agg e x) x w2 w3 b4)) (relu (agg e x) x w2 w3 b4) w5 w6 b7) w8 w9 b10)

/-! ## The two products at an entry

A `dot_general` that contracts the left operand's columns with the right operand's rows reads, at entry `(r, j)`, the sum
over `k` of `lhs (r, k) · rhs (k, j)`. -/

theorem lhs64_0 (j : S100000x64.Idx) (k : dot_S100000x64_S64x64_S100000x64_1_0_0_1_n_n.contr.Idx) :
    (dot_S100000x64_S64x64_S100000x64_1_0_0_1_n_n.lhsIdx j k 0).val = (j 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

theorem lhs64_1 (j : S100000x64.Idx) (k : dot_S100000x64_S64x64_S100000x64_1_0_0_1_n_n.contr.Idx) :
    (dot_S100000x64_S64x64_S100000x64_1_0_0_1_n_n.lhsIdx j k 1).val = (k ⟨0, by decide⟩).val :=
  dot_S100000x64_S64x64_S100000x64_1_0_0_1_n_n.lhsIdx_val_of_single rfl j k

theorem rhs64_0 (j : S100000x64.Idx) (k : dot_S100000x64_S64x64_S100000x64_1_0_0_1_n_n.contr.Idx) :
    (dot_S100000x64_S64x64_S100000x64_1_0_0_1_n_n.rhsIdx j k 0).val = (k ⟨0, by decide⟩).val :=
  dot_S100000x64_S64x64_S100000x64_1_0_0_1_n_n.rhsIdx_val_of_single rfl j k

theorem rhs64_1 (j : S100000x64.Idx) (k : dot_S100000x64_S64x64_S100000x64_1_0_0_1_n_n.contr.Idx) :
    (dot_S100000x64_S64x64_S100000x64_1_0_0_1_n_n.rhsIdx j k 1).val = (j 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The hidden layers' product at entry `(r, j)`. -/
theorem dot64_apply (a : FVec Ideal S100000x64 .f32) (w : FVec Ideal S64x64 .f32) (r : Fin 100000) (j : Fin 64) :
    Host.dotGeneral (F := Ideal) dot_S100000x64_S64x64_S100000x64_1_0_0_1_n_n none a w (ix2 r j)
      = ∑ k : Fin 64, a (ix2 r k) * w (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have hl : dot_S100000x64_S64x64_S100000x64_1_0_0_1_n_n.lhsIdx (ix2 r j)
      ((contrEquiv1 dot_S100000x64_S64x64_S100000x64_1_0_0_1_n_n 64 rfl rfl).symm k) = ix2 r k :=
    funext fun c => Fin.ext (by
      match c with
      | ⟨0, _⟩ => exact lhs64_0 _ _
      | ⟨1, _⟩ => exact (lhs64_1 _ _).trans hk)
  have hr : dot_S100000x64_S64x64_S100000x64_1_0_0_1_n_n.rhsIdx (ix2 r j)
      ((contrEquiv1 dot_S100000x64_S64x64_S100000x64_1_0_0_1_n_n 64 rfl rfl).symm k) = ix2 k j :=
    funext fun c => Fin.ext (by
      match c with
      | ⟨0, _⟩ => exact (rhs64_0 _ _).trans hk
      | ⟨1, _⟩ => exact rhs64_1 _ _)
  rw [hl, hr]

theorem lhs40_0 (j : S100000x40.Idx) (k : dot_S100000x64_S64x40_S100000x40_1_0_0_1_n_n.contr.Idx) :
    (dot_S100000x64_S64x40_S100000x40_1_0_0_1_n_n.lhsIdx j k 0).val = (j 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl

theorem lhs40_1 (j : S100000x40.Idx) (k : dot_S100000x64_S64x40_S100000x40_1_0_0_1_n_n.contr.Idx) :
    (dot_S100000x64_S64x40_S100000x40_1_0_0_1_n_n.lhsIdx j k 1).val = (k ⟨0, by decide⟩).val :=
  dot_S100000x64_S64x40_S100000x40_1_0_0_1_n_n.lhsIdx_val_of_single rfl j k

theorem rhs40_0 (j : S100000x40.Idx) (k : dot_S100000x64_S64x40_S100000x40_1_0_0_1_n_n.contr.Idx) :
    (dot_S100000x64_S64x40_S100000x40_1_0_0_1_n_n.rhsIdx j k 0).val = (k ⟨0, by decide⟩).val :=
  dot_S100000x64_S64x40_S100000x40_1_0_0_1_n_n.rhsIdx_val_of_single rfl j k

theorem rhs40_1 (j : S100000x40.Idx) (k : dot_S100000x64_S64x40_S100000x40_1_0_0_1_n_n.contr.Idx) :
    (dot_S100000x64_S64x40_S100000x40_1_0_0_1_n_n.rhsIdx j k 1).val = (j 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-- The last layer's product at entry `(r, j)`. -/
theorem dot40_apply (a : FVec Ideal S100000x64 .f32) (w : FVec Ideal S64x40 .f32) (r : Fin 100000) (j : Fin 40) :
    Host.dotGeneral (F := Ideal) dot_S100000x64_S64x40_S100000x40_1_0_0_1_n_n none a w (ix2 r j)
      = ∑ k : Fin 64, a (ix2 r k) * w (ix2 k j) := by
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have hl : dot_S100000x64_S64x40_S100000x40_1_0_0_1_n_n.lhsIdx (ix2 r j)
      ((contrEquiv1 dot_S100000x64_S64x40_S100000x40_1_0_0_1_n_n 64 rfl rfl).symm k) = ix2 r k :=
    funext fun c => Fin.ext (by
      match c with
      | ⟨0, _⟩ => exact lhs40_0 _ _
      | ⟨1, _⟩ => exact (lhs40_1 _ _).trans hk)
  have hr : dot_S100000x64_S64x40_S100000x40_1_0_0_1_n_n.rhsIdx (ix2 r j)
      ((contrEquiv1 dot_S100000x64_S64x40_S100000x40_1_0_0_1_n_n 64 rfl rfl).symm k) = ix2 k j :=
    funext fun c => Fin.ext (by
      match c with
      | ⟨0, _⟩ => exact (rhs40_0 _ _).trans hk
      | ⟨1, _⟩ => exact rhs40_1 _ _)
  rw [hl, hr]

/-! ## Broadcasts at an entry -/

/-- The all-zero array reads zero. -/
theorem zeros64_apply (i : S100000x64.Idx) : zeros64 (F := Ideal) i = 0 := by
  unfold zeros64
  rw [broadcastInDim_scalar_apply, constant_apply, Ideal.ofBits_zero_f32]

/-- A bias vector laid out as one row and repeated down the rows reads, at `(r, j)`, its entry `j`. -/
theorem bias64_apply (b : FVec Ideal S64 .f32) (r : Fin 100000) (j : Fin 64) :
    broadcastInDim S100000x64 ![0, 1] bcast_S1x64_S100000x64_0_1 (broadcastInDim S1x64 ![1] bcast_S64_S1x64_1 b) (ix2 r j)
      = b (ix1 j) := by
  rw [broadcastInDim_oneRow_apply]
  refine broadcastInDim_apply ![1] bcast_S64_S1x64_1 b (ix2 (0 : Fin 1) j) (ix1 j) fun c => ?_
  match c with
  | ⟨0, _⟩ => rfl

theorem bias40_apply (b : FVec Ideal S40 .f32) (r : Fin 100000) (j : Fin 40) :
    broadcastInDim S100000x40 ![0, 1] bcast_S1x40_S100000x40_0_1 (broadcastInDim S1x40 ![1] bcast_S40_S1x40_1 b) (ix2 r j)
      = b (ix1 j) := by
  rw [broadcastInDim_oneRow_apply]
  refine broadcastInDim_apply ![1] bcast_S40_S1x40_1 b (ix2 (0 : Fin 1) j) (ix1 j) fun c => ?_
  match c with
  | ⟨0, _⟩ => rfl

/-- A one-column array repeated along the 40 classes reads, at `(r, j)`, the column's entry `r`. -/
theorem colB_apply (v : FVec Ideal S100000x1 .f32) (r : Fin 100000) (j : Fin 40) :
    broadcastInDim S100000x40 ![0, 1] bcast_S100000x1_S100000x40_0_1 v (ix2 r j) = v (ix2 r (0 : Fin 1)) := by
  refine broadcastInDim_apply ![0, 1] bcast_S100000x1_S100000x40_0_1 v (ix2 r j) (ix2 r (0 : Fin 1)) fun c => ?_
  match c with
  | ⟨0, _⟩ => rfl
  | ⟨1, _⟩ => rfl

/-- A vector of one value per row laid out as one column reads, at `(r, 0)`, its entry `r`. -/
theorem colA_apply (v : FVec Ideal S100000 .f32) (r : Fin 100000) :
    broadcastInDim S100000x1 ![0] bcast_S100000_S100000x1_0 v (ix2 r (0 : Fin 1)) = v (ix1 r) := by
  refine broadcastInDim_apply ![0] bcast_S100000_S100000x1_0 v (ix2 r (0 : Fin 1)) (ix1 r) fun c => ?_
  match c with
  | ⟨0, _⟩ => rfl

/-! ## The layers at an entry -/

/-- The exponential and the logarithm act entry by entry. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The f32 pattern of −∞ is the extended reals' least element. -/
theorem ofBits_negInf_f32 : Ideal.ofBits .f32 0xFF800000#32 = (⊥ : EReal) := by simp [Ideal.ofBits, Ideal.ieee]

/-- Row `r` with class `k` put back is entry `(r, k)`. -/
theorem lift40 (hR : S100000x40.Reduces [1] S100000) (r : Fin 100000) (k : Fin 40) : hR.lift (ix1 r) k = ix2 r k :=
  funext fun c => Fin.ext (by
    match c with
    | ⟨0, _⟩ => rfl
    | ⟨1, _⟩ => rfl)

theorem lin2_apply (a x : FVec Ideal S100000x64 .f32) (wl wr : FVec Ideal S64x40 .f32) (b : FVec Ideal S40 .f32)
    (r : Fin 100000) (j : Fin 40) :
    lin2 (F := Ideal) a x wl wr b (ix2 r j)
      = Sage.lin (fun k => a (ix2 r k)) (fun k => x (ix2 r k)) (fun k j => wl (ix2 k j)) (fun k j => wr (ix2 k j))
          (fun j => b (ix1 j)) j := by
  unfold lin2
  rw [addf_apply, addf_apply, dot40_apply, dot40_apply, bias40_apply]
  unfold Sage.lin
  rw [add_right_comm]

/-- Every row's maximum, at an entry: the fold of `max` from −∞ over the row. -/
theorem rowMaxB_apply (h : FVec Ideal S100000x40 .f32) (r : Fin 100000) (j : Fin 40) :
    rowMaxB (F := Ideal) h (ix2 r j) = Sage.rowMax (fun q => h (ix2 r q)) := by
  unfold rowMaxB
  rw [colB_apply, colA_apply, maximumf_apply, broadcastInDim_scalar_apply, constant_apply, ofBits_negInf_f32,
    Host.reduce_eq_fold_single FloatOps.maximumf h _ reducesTo_S100000x40_S100000_d1 (by decide) h_S_ (ix1 r),
    constant_apply, ofBits_negInf_f32, max_eq_right bot_le]
  unfold Sage.rowMax
  refine congrArg (Finset.univ.fold max (⊥ : EReal)) (funext fun k => ?_)
  exact congrArg h (lift40 _ r k)

/-- The log-softmax of the reference at an entry. -/
theorem lsm_apply (h : FVec Ideal S100000x40 .f32) (r : Fin 100000) (j : Fin 40) :
    lsm (F := Ideal) h (ix2 r j) = Sage.lsm (fun q => h (ix2 r q)) j := by
  unfold lsm
  rw [subf_apply, subf_apply, rowMaxB_apply, colB_apply, hostLog_apply, colA_apply, hostReduceAdd_apply,
    Ideal.hostReduceAdd_single reducesTo_S100000x40_S100000_d1 (by decide), constant_apply, Ideal.ofBits_zero_f32, zero_add]
  unfold Sage.lsm
  refine congrArg (fun s => h (ix2 r j) - Sage.rowMax (fun q => h (ix2 r q)) - Ideal.log s) ?_
  refine Finset.sum_congr rfl fun (k : Fin 40) _ => ?_
  rw [lift40, hostExp_apply, subf_apply, rowMaxB_apply]

/-- A hidden layer of the reference at entry `(r, j)`. -/
theorem relu_apply (a x : FVec Ideal S100000x64 .f32) (wl wr : FVec Ideal S64x64 .f32) (b : FVec Ideal S64 .f32)
    (r : Fin 100000) (j : Fin 64) :
    relu (F := Ideal) a x wl wr b (ix2 r j)
      = Sage.reluOut (fun k => a (ix2 r k)) (fun k => x (ix2 r k)) (fun k j => wl (ix2 k j)) (fun k j => wr (ix2 k j))
          (fun j => b (ix1 j)) j := by
  unfold relu
  rw [maximumf_apply, addf_apply, addf_apply, dot64_apply, dot64_apply, bias64_apply, zeros64_apply]
  unfold Sage.reluOut Sage.lin
  rw [add_right_comm]

/-- The reference's last layer at entry `(r, j)`. -/
theorem lsm_lin2_apply (a x : FVec Ideal S100000x64 .f32) (wl wr : FVec Ideal S64x40 .f32) (b : FVec Ideal S40 .f32)
    (r : Fin 100000) (j : Fin 40) :
    lsm (F := Ideal) (lin2 a x wl wr b) (ix2 r j)
      = Sage.lsmOut (fun k => a (ix2 r k)) (fun k => x (ix2 r k)) (fun k j => wl (ix2 k j)) (fun k j => wr (ix2 k j))
          (fun j => b (ix1 j)) j := by
  rw [lsm_apply]
  unfold Sage.lsmOut
  exact congrArg (fun f => Sage.lsm f j) (funext fun q => lin2_apply a x wl wr b r q)

end Cert.RefLayers

end
-- ==== Proof.RefStages.lean ====
/-
  The reference program's run, a layer at a time.

  The program is one straight line of host operations. Read in stretches (through the first hidden layer, through
  the second, the last layer's affine part, the log-softmax one named value at a time), each stretch's result is a layer of what the stretch before
  left: the first hidden layer of the arguments; the second of the first's result; the affine part of the second's; and
  the log-softmax of that. The edge rows and the degree column are computed in the first stretch and only read afterwards;
  no stretch writes an argument. Composing them gives the run's result as `Cert.RefLayers.result` of the arguments.
-/
import proofs.«175299_j15985868276093_1_alg».proof.Proof.RefChunks
import proofs.«175299_j15985868276093_1_alg».proof.Proof.RefLayers
import Idealize.ShloMosaic.Lib.StableHlo.Run
import Idealize.ShloMosaic.Lib.Pipeline.Frame

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.RunP Cert.RefLayers

variable {F : FTy → Type} [FloatOps F]

/-! ## The neighbourhood mean over named edge rows and degree column -/

/-- The destination node of every edge. -/
def dRow (e : IVec S2x1250000 32) : IVec S1250000 32 :=
  shapeCast _ (extractStridedSlice S1x1250000 ![0, 0] e slices_S2x1250000_S1x1250000_0_0) shapeCasts_S1x1250000_S1250000

/-- `1 / max (in-degree) 1` of every node, as a column. -/
def dCol (e : IVec S2x1250000 32) : FVec F S100000x1 .f32 :=
  broadcastInDim S100000x1 ![0] bcast_S100000_S100000x1_0
    (Host.divf (broadcastInDim S100000 ![] bcast_S_S100000 (constant S_ .f32 0x3F800000#32))
      (maximumf (Host.scatterAdd scatter_S100000_S1250000x1_S1250000_n_0_0_1 (broadcastInDim S100000 ![] bcast_S_S100000 (constant S_ .f32 0x00000000#32))
          (broadcastInDim S1250000x1 ![0] bcast_S1250000_S1250000x1_0 (dRow e)) (broadcastInDim S1250000 ![] bcast_S_S1250000 (constant S_ .f32 0x3F800000#32)))
        (broadcastInDim S100000 ![] bcast_S_S100000 (constant S_ .f32 0x3F800000#32))))

/-- The neighbourhood mean of `h` over edges with destinations `d` and sources `s`, rows scaled by the column `col`. -/
def aggOf (d s : IVec S1250000 32) (col : FVec F S100000x1 .f32) (h : FVec F S100000x64 .f32) : FVec F S100000x64 .f32 :=
  mulf (Host.scatterAdd scatter_S100000x64_S1250000x1_S1250000x64_1_0_0_1
      (broadcastInDim S100000x64 ![] bcast_S_S100000x64 (constant S_ .f32 0x00000000#32))
      (broadcastInDim S1250000x1 ![0] bcast_S1250000_S1250000x1_0 d)
      (Host.gather gather_S100000x64_S1250000x1_S1250000x64_1_0_n_n_0_1_164 h
        (broadcastInDim S1250000x1 ![0] bcast_S1250000_S1250000x1_0
          (select (cmpi .slt s (broadcastInDim S1250000 ![] bcast_S_S1250000 (constantI S_ 32 0#32)))
            (addi s (broadcastInDim S1250000 ![] bcast_S_S1250000 (constantI S_ 32 100000#32))) s))))
    (broadcastInDim S100000x64 ![0, 1] bcast_S100000x1_S100000x64_0_1 col)

/-- The neighbourhood mean over an edge list is that, at the list's two rows and its degree column. -/
theorem agg_eq (e : IVec S2x1250000 32) (h : FVec F S100000x64 .f32) :
    agg e h = aggOf (dRow e) (srcRow e) (dCol e) h := rfl

/-! ## The four stretches, each from ANY contents `W` of the buffers -/

variable (W : Valuation τ sig (Elt F))

/-- The first stretch leaves the first hidden layer of the contents it starts from. -/
theorem stageA_v31 : after opsA W (Proc.devRef .tc main_v31)
    = relu (agg (W (Proc.devRef .tc main_arg1)) (W (Proc.devRef .tc main_arg0))) (W (Proc.devRef .tc main_arg0)) (W (Proc.devRef .tc main_arg2)) (W (Proc.devRef .tc main_arg3)) (W (Proc.devRef .tc main_arg4)) := by
  after_results_simp <;> (try simp only [TRef.toBuf, TRef.ofBuf, cast_eq]) <;> rfl
theorem stageA_v1 : after opsA W (Proc.devRef .tc main_v1) = dRow (W (Proc.devRef .tc main_arg1)) := by
  after_results_simp <;> (try simp only [TRef.toBuf, TRef.ofBuf, cast_eq]) <;> rfl
theorem stageA_v3 : after opsA W (Proc.devRef .tc main_v3) = srcRow (W (Proc.devRef .tc main_arg1)) := by
  after_results_simp <;> (try simp only [TRef.toBuf, TRef.ofBuf, cast_eq]) <;> rfl
theorem stageA_v12 : after opsA W (Proc.devRef .tc main_v12) = dCol (W (Proc.devRef .tc main_arg1)) := by
  after_results_simp <;> (try simp only [TRef.toBuf, TRef.ofBuf, cast_eq]) <;> rfl

/-- The second stretch leaves the second hidden layer of the first's result. -/
theorem stageB_v50 : after opsB W (Proc.devRef .tc main_v50)
    = relu (aggOf (W (Proc.devRef .tc main_v1)) (W (Proc.devRef .tc main_v3)) (W (Proc.devRef .tc main_v12)) (W (Proc.devRef .tc main_v31))) (W (Proc.devRef .tc main_v31)) (W (Proc.devRef .tc main_arg5)) (W (Proc.devRef .tc main_arg6)) (W (Proc.devRef .tc main_arg7)) := by
  after_results_simp <;> (try simp only [TRef.toBuf, TRef.ofBuf, cast_eq]) <;> rfl

/-- The third stretch leaves the last layer's affine part of the second's result. -/
theorem stageC_v68 : after opsC W (Proc.devRef .tc main_v68)
    = lin2 (aggOf (W (Proc.devRef .tc main_v1)) (W (Proc.devRef .tc main_v3)) (W (Proc.devRef .tc main_v12)) (W (Proc.devRef .tc main_v50))) (W (Proc.devRef .tc main_v50)) (W (Proc.devRef .tc main_arg8)) (W (Proc.devRef .tc main_arg9)) (W (Proc.devRef .tc main_arg10)) := by
  after_results_simp <;> (try simp only [TRef.toBuf, TRef.ofBuf, cast_eq]) <;> rfl

/-! The log-softmax, one named value at a time -/

theorem stageD1_v0 : after opsD1 W (Proc.devRef .tc main_call2_v0)
    = Host.reduce FloatOps.maximumf (W (Proc.devRef .tc main_v68)) (constant S_ .f32 0xFF800000#32) reducesTo_S100000x40_S100000_d1 h_S_ := by
  after_results_simp <;> (try simp only [TRef.toBuf, TRef.ofBuf, cast_eq]) <;> rfl
theorem stageD2_v2 : after opsD2 W (Proc.devRef .tc main_call2_v2)
    = maximumf (broadcastInDim S100000 ![] bcast_S_S100000 (constant S_ .f32 0xFF800000#32)) (W (Proc.devRef .tc main_call2_v0)) := by
  after_results_simp <;> (try simp only [TRef.toBuf, TRef.ofBuf, cast_eq]) <;> rfl
theorem stageD3_v4 : after opsD3 W (Proc.devRef .tc main_call2_v4)
    = broadcastInDim S100000x40 ![0, 1] bcast_S100000x1_S100000x40_0_1 (broadcastInDim S100000x1 ![0] bcast_S100000_S100000x1_0 (W (Proc.devRef .tc main_call2_v2))) := by
  after_results_simp <;> (try simp only [TRef.toBuf, TRef.ofBuf, cast_eq]) <;> rfl
theorem stageD4_v5 : after opsD4 W (Proc.devRef .tc main_call2_v5) = subf (W (Proc.devRef .tc main_v68)) (W (Proc.devRef .tc main_call2_v4)) := by
  after_results_simp <;> (try simp only [TRef.toBuf, TRef.ofBuf, cast_eq]) <;> rfl
theorem stageD4_v6 : after opsD4 W (Proc.devRef .tc main_call2_v6) = Host.exp (subf (W (Proc.devRef .tc main_v68)) (W (Proc.devRef .tc main_call2_v4))) := by
  after_results_simp <;> (try simp only [TRef.toBuf, TRef.ofBuf, cast_eq]) <;> rfl
theorem stageD5_v7 : after opsD5 W (Proc.devRef .tc main_call2_v7)
    = Host.reduceAdd (W (Proc.devRef .tc main_call2_v6)) (constant S_ .f32 0x00000000#32) reducesTo_S100000x40_S100000_d1 h_S_ := by
  after_results_simp <;> (try simp only [TRef.toBuf, TRef.ofBuf, cast_eq]) <;> rfl
theorem stageD6_v10 : after opsD6 W (Proc.devRef .tc main_call2_v10)
    = broadcastInDim S100000x40 ![0, 1] bcast_S100000x1_S100000x40_0_1 (Host.log (broadcastInDim S100000x1 ![0] bcast_S100000_S100000x1_0 (W (Proc.devRef .tc main_call2_v7)))) := by
  after_results_simp <;> (try simp only [TRef.toBuf, TRef.ofBuf, cast_eq]) <;> rfl
theorem stageD7_v69 : after opsD7 W (Proc.devRef .tc main_v69) = subf (W (Proc.devRef .tc main_call2_v5)) (W (Proc.devRef .tc main_call2_v10)) := by
  after_results_simp <;> (try simp only [TRef.toBuf, TRef.ofBuf, cast_eq]) <;> rfl

/-- A buffer a stretch does not write keeps its contents. -/
theorem keepA_arg0 : after opsA W (Proc.devRef .tc main_arg0) = W (Proc.devRef .tc main_arg0) := by after_results_simp <;> (try simp only [TRef.toBuf, TRef.ofBuf, cast_eq]) <;> rfl
theorem keepA_arg1 : after opsA W (Proc.devRef .tc main_arg1) = W (Proc.devRef .tc main_arg1) := by after_results_simp <;> (try simp only [TRef.toBuf, TRef.ofBuf, cast_eq]) <;> rfl
theorem keepA_arg2 : after opsA W (Proc.devRef .tc main_arg2) = W (Proc.devRef .tc main_arg2) := by after_results_simp <;> (try simp only [TRef.toBuf, TRef.ofBuf, cast_eq]) <;> rfl
theorem keepA_arg3 : after opsA W (Proc.devRef .tc main_arg3) = W (Proc.devRef .tc main_arg3) := by after_results_simp <;> (try simp only [TRef.toBuf, TRef.ofBuf, cast_eq]) <;> rfl
theorem keepA_arg4 : after opsA W (Proc.devRef .tc main_arg4) = W (Proc.devRef .tc main_arg4) := by after_results_simp <;> (try simp only [TRef.toBuf, TRef.ofBuf, cast_eq]) <;> rfl
theorem keepA_arg5 : after opsA W (Proc.devRef .tc main_arg5) = W (Proc.devRef .tc main_arg5) := by after_results_simp <;> (try simp only [TRef.toBuf, TRef.ofBuf, cast_eq]) <;> rfl
theorem keepA_arg6 : after opsA W (Proc.devRef .tc main_arg6) = W (Proc.devRef .tc main_arg6) := by after_results_simp <;> (try simp only [TRef.toBuf, TRef.ofBuf, cast_eq]) <;> rfl
theorem keepA_arg7 : after opsA W (Proc.devRef .tc main_arg7) = W (Proc.devRef .tc main_arg7) := by after_results_simp <;> (try simp only [TRef.toBuf, TRef.ofBuf, cast_eq]) <;> rfl
theorem keepA_arg8 : after opsA W (Proc.devRef .tc main_arg8) = W (Proc.devRef .tc main_arg8) := by after_results_simp <;> (try simp only [TRef.toBuf, TRef.ofBuf, cast_eq]) <;> rfl
theorem keepA_arg9 : after opsA W (Proc.devRef .tc main_arg9) = W (Proc.devRef .tc main_arg9) := by after_results_simp <;> (try simp only [TRef.toBuf, TRef.ofBuf, cast_eq]) <;> rfl
theorem keepA_arg10 : after opsA W (Proc.devRef .tc main_arg10) = W (Proc.devRef .tc main_arg10) := by after_results_simp <;> (try simp only [TRef.toBuf, TRef.ofBuf, cast_eq]) <;> rfl
theorem keepB_v1 : after opsB W (Proc.devRef .tc main_v1) = W (Proc.devRef .tc main_v1) := by after_results_simp <;> (try simp only [TRef.toBuf, TRef.ofBuf, cast_eq]) <;> rfl
theorem keepB_v3 : after opsB W (Proc.devRef .tc main_v3) = W (Proc.devRef .tc main_v3) := by after_results_simp <;> (try simp only [TRef.toBuf, TRef.ofBuf, cast_eq]) <;> rfl
theorem keepB_v12 : after opsB W (Proc.devRef .tc main_v12) = W (Proc.devRef .tc main_v12) := by after_results_simp <;> (try simp only [TRef.toBuf, TRef.ofBuf, cast_eq]) <;> rfl
theorem keepB_arg0 : after opsB W (Proc.devRef .tc main_arg0) = W (Proc.devRef .tc main_arg0) := by after_results_simp <;> (try simp only [TRef.toBuf, TRef.ofBuf, cast_eq]) <;> rfl
theorem keepB_arg1 : after opsB W (Proc.devRef .tc main_arg1) = W (Proc.devRef .tc main_arg1) := by after_results_simp <;> (try simp only [TRef.toBuf, TRef.ofBuf, cast_eq]) <;> rfl
theorem keepB_arg2 : after opsB W (Proc.devRef .tc main_arg2) = W (Proc.devRef .tc main_arg2) := by after_results_simp <;> (try simp only [TRef.toBuf, TRef.ofBuf, cast_eq]) <;> rfl
theorem keepB_arg3 : after opsB W (Proc.devRef .tc main_arg3) = W (Proc.devRef .tc main_arg3) := by after_results_simp <;> (try simp only [TRef.toBuf, TRef.ofBuf, cast_eq]) <;> rfl
theorem keepB_arg4 : after opsB W (Proc.devRef .tc main_arg4) = W (Proc.devRef .tc main_arg4) := by after_results_simp <;> (try simp only [TRef.toBuf, TRef.ofBuf, cast_eq]) <;> rfl
theorem keepB_arg5 : after opsB W (Proc.devRef .tc main_arg5) = W (Proc.devRef .tc main_arg5) := by after_results_simp <;> (try simp only [TRef.toBuf, TRef.ofBuf, cast_eq]) <;> rfl
theorem keepB_arg6 : after opsB W (Proc.devRef .tc main_arg6) = W (Proc.devRef .tc main_arg6) := by after_results_simp <;> (try simp only [TRef.toBuf, TRef.ofBuf, cast_eq]) <;> rfl
theorem keepB_arg7 : after opsB W (Proc.devRef .tc main_arg7) = W (Proc.devRef .tc main_arg7) := by after_results_simp <;> (try simp only [TRef.toBuf, TRef.ofBuf, cast_eq]) <;> rfl
theorem keepB_arg8 : after opsB W (Proc.devRef .tc main_arg8) = W (Proc.devRef .tc main_arg8) := by after_results_simp <;> (try simp only [TRef.toBuf, TRef.ofBuf, cast_eq]) <;> rfl
theorem keepB_arg9 : after opsB W (Proc.devRef .tc main_arg9) = W (Proc.devRef .tc main_arg9) := by after_results_simp <;> (try simp only [TRef.toBuf, TRef.ofBuf, cast_eq]) <;> rfl
theorem keepB_arg10 : after opsB W (Proc.devRef .tc main_arg10) = W (Proc.devRef .tc main_arg10) := by after_results_simp <;> (try simp only [TRef.toBuf, TRef.ofBuf, cast_eq]) <;> rfl
theorem keepC_arg0 : after opsC W (Proc.devRef .tc main_arg0) = W (Proc.devRef .tc main_arg0) := by after_results_simp <;> (try simp only [TRef.toBuf, TRef.ofBuf, cast_eq]) <;> rfl
theorem keepC_arg1 : after opsC W (Proc.devRef .tc main_arg1) = W (Proc.devRef .tc main_arg1) := by after_results_simp <;> (try simp only [TRef.toBuf, TRef.ofBuf, cast_eq]) <;> rfl
theorem keepC_arg2 : after opsC W (Proc.devRef .tc main_arg2) = W (Proc.devRef .tc main_arg2) := by after_results_simp <;> (try simp only [TRef.toBuf, TRef.ofBuf, cast_eq]) <;> rfl
theorem keepC_arg3 : after opsC W (Proc.devRef .tc main_arg3) = W (Proc.devRef .tc main_arg3) := by after_results_simp <;> (try simp only [TRef.toBuf, TRef.ofBuf, cast_eq]) <;> rfl
theorem keepC_arg4 : after opsC W (Proc.devRef .tc main_arg4) = W (Proc.devRef .tc main_arg4) := by after_results_simp <;> (try simp only [TRef.toBuf, TRef.ofBuf, cast_eq]) <;> rfl
theorem keepC_arg5 : after opsC W (Proc.devRef .tc main_arg5) = W (Proc.devRef .tc main_arg5) := by after_results_simp <;> (try simp only [TRef.toBuf, TRef.ofBuf, cast_eq]) <;> rfl
theorem keepC_arg6 : after opsC W (Proc.devRef .tc main_arg6) = W (Proc.devRef .tc main_arg6) := by after_results_simp <;> (try simp only [TRef.toBuf, TRef.ofBuf, cast_eq]) <;> rfl
theorem keepC_arg7 : after opsC W (Proc.devRef .tc main_arg7) = W (Proc.devRef .tc main_arg7) := by after_results_simp <;> (try simp only [TRef.toBuf, TRef.ofBuf, cast_eq]) <;> rfl
theorem keepC_arg8 : after opsC W (Proc.devRef .tc main_arg8) = W (Proc.devRef .tc main_arg8) := by after_results_simp <;> (try simp only [TRef.toBuf, TRef.ofBuf, cast_eq]) <;> rfl
theorem keepC_arg9 : after opsC W (Proc.devRef .tc main_arg9) = W (Proc.devRef .tc main_arg9) := by after_results_simp <;> (try simp only [TRef.toBuf, TRef.ofBuf, cast_eq]) <;> rfl
theorem keepC_arg10 : after opsC W (Proc.devRef .tc main_arg10) = W (Proc.devRef .tc main_arg10) := by after_results_simp <;> (try simp only [TRef.toBuf, TRef.ofBuf, cast_eq]) <;> rfl
theorem keepD1_v68 : after opsD1 W (Proc.devRef .tc main_v68) = W (Proc.devRef .tc main_v68) := by after_results_simp <;> (try simp only [TRef.toBuf, TRef.ofBuf, cast_eq]) <;> rfl
theorem keepD1_arg0 : after opsD1 W (Proc.devRef .tc main_arg0) = W (Proc.devRef .tc main_arg0) := by after_results_simp <;> (try simp only [TRef.toBuf, TRef.ofBuf, cast_eq]) <;> rfl
theorem keepD1_arg1 : after opsD1 W (Proc.devRef .tc main_arg1) = W (Proc.devRef .tc main_arg1) := by after_results_simp <;> (try simp only [TRef.toBuf, TRef.ofBuf, cast_eq]) <;> rfl
theorem keepD1_arg2 : after opsD1 W (Proc.devRef .tc main_arg2) = W (Proc.devRef .tc main_arg2) := by after_results_simp <;> (try simp only [TRef.toBuf, TRef.ofBuf, cast_eq]) <;> rfl
theorem keepD1_arg3 : after opsD1 W (Proc.devRef .tc main_arg3) = W (Proc.devRef .tc main_arg3) := by after_results_simp <;> (try simp only [TRef.toBuf, TRef.ofBuf, cast_eq]) <;> rfl
theorem keepD1_arg4 : after opsD1 W (Proc.devRef .tc main_arg4) = W (Proc.devRef .tc main_arg4) := by after_results_simp <;> (try simp only [TRef.toBuf, TRef.ofBuf, cast_eq]) <;> rfl
theorem keepD1_arg5 : after opsD1 W (Proc.devRef .tc main_arg5) = W (Proc.devRef .tc main_arg5) := by after_results_simp <;> (try simp only [TRef.toBuf, TRef.ofBuf, cast_eq]) <;> rfl
theorem keepD1_arg6 : after opsD1 W (Proc.devRef .tc main_arg6) = W (Proc.devRef .tc main_arg6) := by after_results_simp <;> (try simp only [TRef.toBuf, TRef.ofBuf, cast_eq]) <;> rfl
theorem keepD1_arg7 : after opsD1 W (Proc.devRef .tc main_arg7) = W (Proc.devRef .tc main_arg7) := by after_results_simp <;> (try simp only [TRef.toBuf, TRef.ofBuf, cast_eq]) <;> rfl
theorem keepD1_arg8 : after opsD1 W (Proc.devRef .tc main_arg8) = W (Proc.devRef .tc main_arg8) := by after_results_simp <;> (try simp only [TRef.toBuf, TRef.ofBuf, cast_eq]) <;> rfl
theorem keepD1_arg9 : after opsD1 W (Proc.devRef .tc main_arg9) = W (Proc.devRef .tc main_arg9) := by after_results_simp <;> (try simp only [TRef.toBuf, TRef.ofBuf, cast_eq]) <;> rfl
theorem keepD1_arg10 : after opsD1 W (Proc.devRef .tc main_arg10) = W (Proc.devRef .tc main_arg10) := by after_results_simp <;> (try simp only [TRef.toBuf, TRef.ofBuf, cast_eq]) <;> rfl
theorem keepD2_v68 : after opsD2 W (Proc.devRef .tc main_v68) = W (Proc.devRef .tc main_v68) := by after_results_simp <;> (try simp only [TRef.toBuf, TRef.ofBuf, cast_eq]) <;> rfl
theorem keepD2_arg0 : after opsD2 W (Proc.devRef .tc main_arg0) = W (Proc.devRef .tc main_arg0) := by after_results_simp <;> (try simp only [TRef.toBuf, TRef.ofBuf, cast_eq]) <;> rfl
theorem keepD2_arg1 : after opsD2 W (Proc.devRef .tc main_arg1) = W (Proc.devRef .tc main_arg1) := by after_results_simp <;> (try simp only [TRef.toBuf, TRef.ofBuf, cast_eq]) <;> rfl
theorem keepD2_arg2 : after opsD2 W (Proc.devRef .tc main_arg2) = W (Proc.devRef .tc main_arg2) := by after_results_simp <;> (try simp only [TRef.toBuf, TRef.ofBuf, cast_eq]) <;> rfl
theorem keepD2_arg3 : after opsD2 W (Proc.devRef .tc main_arg3) = W (Proc.devRef .tc main_arg3) := by after_results_simp <;> (try simp only [TRef.toBuf, TRef.ofBuf, cast_eq]) <;> rfl
theorem keepD2_arg4 : after opsD2 W (Proc.devRef .tc main_arg4) = W (Proc.devRef .tc main_arg4) := by after_results_simp <;> (try simp only [TRef.toBuf, TRef.ofBuf, cast_eq]) <;> rfl
theorem keepD2_arg5 : after opsD2 W (Proc.devRef .tc main_arg5) = W (Proc.devRef .tc main_arg5) := by after_results_simp <;> (try simp only [TRef.toBuf, TRef.ofBuf, cast_eq]) <;> rfl
theorem keepD2_arg6 : after opsD2 W (Proc.devRef .tc main_arg6) = W (Proc.devRef .tc main_arg6) := by after_results_simp <;> (try simp only [TRef.toBuf, TRef.ofBuf, cast_eq]) <;> rfl
theorem keepD2_arg7 : after opsD2 W (Proc.devRef .tc main_arg7) = W (Proc.devRef .tc main_arg7) := by after_results_simp <;> (try simp only [TRef.toBuf, TRef.ofBuf, cast_eq]) <;> rfl
theorem keepD2_arg8 : after opsD2 W (Proc.devRef .tc main_arg8) = W (Proc.devRef .tc main_arg8) := by after_results_simp <;> (try simp only [TRef.toBuf, TRef.ofBuf, cast_eq]) <;> rfl
theorem keepD2_arg9 : after opsD2 W (Proc.devRef .tc main_arg9) = W (Proc.devRef .tc main_arg9) := by after_results_simp <;> (try simp only [TRef.toBuf, TRef.ofBuf, cast_eq]) <;> rfl
theorem keepD2_arg10 : after opsD2 W (Proc.devRef .tc main_arg10) = W (Proc.devRef .tc main_arg10) := by after_results_simp <;> (try simp only [TRef.toBuf, TRef.ofBuf, cast_eq]) <;> rfl
theorem keepD3_v68 : after opsD3 W (Proc.devRef .tc main_v68) = W (Proc.devRef .tc main_v68) := by after_results_simp <;> (try simp only [TRef.toBuf, TRef.ofBuf, cast_eq]) <;> rfl
theorem keepD3_arg0 : after opsD3 W (Proc.devRef .tc main_arg0) = W (Proc.devRef .tc main_arg0) := by after_results_simp <;> (try simp only [TRef.toBuf, TRef.ofBuf, cast_eq]) <;> rfl
theorem keepD3_arg1 : after opsD3 W (Proc.devRef .tc main_arg1) = W (Proc.devRef .tc main_arg1) := by after_results_simp <;> (try simp only [TRef.toBuf, TRef.ofBuf, cast_eq]) <;> rfl
theorem keepD3_arg2 : after opsD3 W (Proc.devRef .tc main_arg2) = W (Proc.devRef .tc main_arg2) := by after_results_simp <;> (try simp only [TRef.toBuf, TRef.ofBuf, cast_eq]) <;> rfl
theorem keepD3_arg3 : after opsD3 W (Proc.devRef .tc main_arg3) = W (Proc.devRef .tc main_arg3) := by after_results_simp <;> (try simp only [TRef.toBuf, TRef.ofBuf, cast_eq]) <;> rfl
theorem keepD3_arg4 : after opsD3 W (Proc.devRef .tc main_arg4) = W (Proc.devRef .tc main_arg4) := by after_results_simp <;> (try simp only [TRef.toBuf, TRef.ofBuf, cast_eq]) <;> rfl
theorem keepD3_arg5 : after opsD3 W (Proc.devRef .tc main_arg5) = W (Proc.devRef .tc main_arg5) := by after_results_simp <;> (try simp only [TRef.toBuf, TRef.ofBuf, cast_eq]) <;> rfl
theorem keepD3_arg6 : after opsD3 W (Proc.devRef .tc main_arg6) = W (Proc.devRef .tc main_arg6) := by after_results_simp <;> (try simp only [TRef.toBuf, TRef.ofBuf, cast_eq]) <;> rfl
theorem keepD3_arg7 : after opsD3 W (Proc.devRef .tc main_arg7) = W (Proc.devRef .tc main_arg7) := by after_results_simp <;> (try simp only [TRef.toBuf, TRef.ofBuf, cast_eq]) <;> rfl
theorem keepD3_arg8 : after opsD3 W (Proc.devRef .tc main_arg8) = W (Proc.devRef .tc main_arg8) := by after_results_simp <;> (try simp only [TRef.toBuf, TRef.ofBuf, cast_eq]) <;> rfl
theorem keepD3_arg9 : after opsD3 W (Proc.devRef .tc main_arg9) = W (Proc.devRef .tc main_arg9) := by after_results_simp <;> (try simp only [TRef.toBuf, TRef.ofBuf, cast_eq]) <;> rfl
theorem keepD3_arg10 : after opsD3 W (Proc.devRef .tc main_arg10) = W (Proc.devRef .tc main_arg10) := by after_results_simp <;> (try simp only [TRef.toBuf, TRef.ofBuf, cast_eq]) <;> rfl
theorem keepD4_arg0 : after opsD4 W (Proc.devRef .tc main_arg0) = W (Proc.devRef .tc main_arg0) := by after_results_simp <;> (try simp only [TRef.toBuf, TRef.ofBuf, cast_eq]) <;> rfl
theorem keepD4_arg1 : after opsD4 W (Proc.devRef .tc main_arg1) = W (Proc.devRef .tc main_arg1) := by after_results_simp <;> (try simp only [TRef.toBuf, TRef.ofBuf, cast_eq]) <;> rfl
theorem keepD4_arg2 : after opsD4 W (Proc.devRef .tc main_arg2) = W (Proc.devRef .tc main_arg2) := by after_results_simp <;> (try simp only [TRef.toBuf, TRef.ofBuf, cast_eq]) <;> rfl
theorem keepD4_arg3 : after opsD4 W (Proc.devRef .tc main_arg3) = W (Proc.devRef .tc main_arg3) := by after_results_simp <;> (try simp only [TRef.toBuf, TRef.ofBuf, cast_eq]) <;> rfl
theorem keepD4_arg4 : after opsD4 W (Proc.devRef .tc main_arg4) = W (Proc.devRef .tc main_arg4) := by after_results_simp <;> (try simp only [TRef.toBuf, TRef.ofBuf, cast_eq]) <;> rfl
theorem keepD4_arg5 : after opsD4 W (Proc.devRef .tc main_arg5) = W (Proc.devRef .tc main_arg5) := by after_results_simp <;> (try simp only [TRef.toBuf, TRef.ofBuf, cast_eq]) <;> rfl
theorem keepD4_arg6 : after opsD4 W (Proc.devRef .tc main_arg6) = W (Proc.devRef .tc main_arg6) := by after_results_simp <;> (try simp only [TRef.toBuf, TRef.ofBuf, cast_eq]) <;> rfl
theorem keepD4_arg7 : after opsD4 W (Proc.devRef .tc main_arg7) = W (Proc.devRef .tc main_arg7) := by after_results_simp <;> (try simp only [TRef.toBuf, TRef.ofBuf, cast_eq]) <;> rfl
theorem keepD4_arg8 : after opsD4 W (Proc.devRef .tc main_arg8) = W (Proc.devRef .tc main_arg8) := by after_results_simp <;> (try simp only [TRef.toBuf, TRef.ofBuf, cast_eq]) <;> rfl
theorem keepD4_arg9 : after opsD4 W (Proc.devRef .tc main_arg9) = W (Proc.devRef .tc main_arg9) := by after_results_simp <;> (try simp only [TRef.toBuf, TRef.ofBuf, cast_eq]) <;> rfl
theorem keepD4_arg10 : after opsD4 W (Proc.devRef .tc main_arg10) = W (Proc.devRef .tc main_arg10) := by after_results_simp <;> (try simp only [TRef.toBuf, TRef.ofBuf, cast_eq]) <;> rfl
theorem keepD5_call2_v5 : after opsD5 W (Proc.devRef .tc main_call2_v5) = W (Proc.devRef .tc main_call2_v5) := by after_results_simp <;> (try simp only [TRef.toBuf, TRef.ofBuf, cast_eq]) <;> rfl
theorem keepD5_arg0 : after opsD5 W (Proc.devRef .tc main_arg0) = W (Proc.devRef .tc main_arg0) := by after_results_simp <;> (try simp only [TRef.toBuf, TRef.ofBuf, cast_eq]) <;> rfl
theorem keepD5_arg1 : after opsD5 W (Proc.devRef .tc main_arg1) = W (Proc.devRef .tc main_arg1) := by after_results_simp <;> (try simp only [TRef.toBuf, TRef.ofBuf, cast_eq]) <;> rfl
theorem keepD5_arg2 : after opsD5 W (Proc.devRef .tc main_arg2) = W (Proc.devRef .tc main_arg2) := by after_results_simp <;> (try simp only [TRef.toBuf, TRef.ofBuf, cast_eq]) <;> rfl
theorem keepD5_arg3 : after opsD5 W (Proc.devRef .tc main_arg3) = W (Proc.devRef .tc main_arg3) := by after_results_simp <;> (try simp only [TRef.toBuf, TRef.ofBuf, cast_eq]) <;> rfl
theorem keepD5_arg4 : after opsD5 W (Proc.devRef .tc main_arg4) = W (Proc.devRef .tc main_arg4) := by after_results_simp <;> (try simp only [TRef.toBuf, TRef.ofBuf, cast_eq]) <;> rfl
theorem keepD5_arg5 : after opsD5 W (Proc.devRef .tc main_arg5) = W (Proc.devRef .tc main_arg5) := by after_results_simp <;> (try simp only [TRef.toBuf, TRef.ofBuf, cast_eq]) <;> rfl
theorem keepD5_arg6 : after opsD5 W (Proc.devRef .tc main_arg6) = W (Proc.devRef .tc main_arg6) := by after_results_simp <;> (try simp only [TRef.toBuf, TRef.ofBuf, cast_eq]) <;> rfl
theorem keepD5_arg7 : after opsD5 W (Proc.devRef .tc main_arg7) = W (Proc.devRef .tc main_arg7) := by after_results_simp <;> (try simp only [TRef.toBuf, TRef.ofBuf, cast_eq]) <;> rfl
theorem keepD5_arg8 : after opsD5 W (Proc.devRef .tc main_arg8) = W (Proc.devRef .tc main_arg8) := by after_results_simp <;> (try simp only [TRef.toBuf, TRef.ofBuf, cast_eq]) <;> rfl
theorem keepD5_arg9 : after opsD5 W (Proc.devRef .tc main_arg9) = W (Proc.devRef .tc main_arg9) := by after_results_simp <;> (try simp only [TRef.toBuf, TRef.ofBuf, cast_eq]) <;> rfl
theorem keepD5_arg10 : after opsD5 W (Proc.devRef .tc main_arg10) = W (Proc.devRef .tc main_arg10) := by after_results_simp <;> (try simp only [TRef.toBuf, TRef.ofBuf, cast_eq]) <;> rfl
theorem keepD6_call2_v5 : after opsD6 W (Proc.devRef .tc main_call2_v5) = W (Proc.devRef .tc main_call2_v5) := by after_results_simp <;> (try simp only [TRef.toBuf, TRef.ofBuf, cast_eq]) <;> rfl
theorem keepD6_arg0 : after opsD6 W (Proc.devRef .tc main_arg0) = W (Proc.devRef .tc main_arg0) := by after_results_simp <;> (try simp only [TRef.toBuf, TRef.ofBuf, cast_eq]) <;> rfl
theorem keepD6_arg1 : after opsD6 W (Proc.devRef .tc main_arg1) = W (Proc.devRef .tc main_arg1) := by after_results_simp <;> (try simp only [TRef.toBuf, TRef.ofBuf, cast_eq]) <;> rfl
theorem keepD6_arg2 : after opsD6 W (Proc.devRef .tc main_arg2) = W (Proc.devRef .tc main_arg2) := by after_results_simp <;> (try simp only [TRef.toBuf, TRef.ofBuf, cast_eq]) <;> rfl
theorem keepD6_arg3 : after opsD6 W (Proc.devRef .tc main_arg3) = W (Proc.devRef .tc main_arg3) := by after_results_simp <;> (try simp only [TRef.toBuf, TRef.ofBuf, cast_eq]) <;> rfl
theorem keepD6_arg4 : after opsD6 W (Proc.devRef .tc main_arg4) = W (Proc.devRef .tc main_arg4) := by after_results_simp <;> (try simp only [TRef.toBuf, TRef.ofBuf, cast_eq]) <;> rfl
theorem keepD6_arg5 : after opsD6 W (Proc.devRef .tc main_arg5) = W (Proc.devRef .tc main_arg5) := by after_results_simp <;> (try simp only [TRef.toBuf, TRef.ofBuf, cast_eq]) <;> rfl
theorem keepD6_arg6 : after opsD6 W (Proc.devRef .tc main_arg6) = W (Proc.devRef .tc main_arg6) := by after_results_simp <;> (try simp only [TRef.toBuf, TRef.ofBuf, cast_eq]) <;> rfl
theorem keepD6_arg7 : after opsD6 W (Proc.devRef .tc main_arg7) = W (Proc.devRef .tc main_arg7) := by after_results_simp <;> (try simp only [TRef.toBuf, TRef.ofBuf, cast_eq]) <;> rfl
theorem keepD6_arg8 : after opsD6 W (Proc.devRef .tc main_arg8) = W (Proc.devRef .tc main_arg8) := by after_results_simp <;> (try simp only [TRef.toBuf, TRef.ofBuf, cast_eq]) <;> rfl
theorem keepD6_arg9 : after opsD6 W (Proc.devRef .tc main_arg9) = W (Proc.devRef .tc main_arg9) := by after_results_simp <;> (try simp only [TRef.toBuf, TRef.ofBuf, cast_eq]) <;> rfl
theorem keepD6_arg10 : after opsD6 W (Proc.devRef .tc main_arg10) = W (Proc.devRef .tc main_arg10) := by after_results_simp <;> (try simp only [TRef.toBuf, TRef.ofBuf, cast_eq]) <;> rfl
theorem keepD7_arg0 : after opsD7 W (Proc.devRef .tc main_arg0) = W (Proc.devRef .tc main_arg0) := by after_results_simp <;> (try simp only [TRef.toBuf, TRef.ofBuf, cast_eq]) <;> rfl
theorem keepD7_arg1 : after opsD7 W (Proc.devRef .tc main_arg1) = W (Proc.devRef .tc main_arg1) := by after_results_simp <;> (try simp only [TRef.toBuf, TRef.ofBuf, cast_eq]) <;> rfl
theorem keepD7_arg2 : after opsD7 W (Proc.devRef .tc main_arg2) = W (Proc.devRef .tc main_arg2) := by after_results_simp <;> (try simp only [TRef.toBuf, TRef.ofBuf, cast_eq]) <;> rfl
theorem keepD7_arg3 : after opsD7 W (Proc.devRef .tc main_arg3) = W (Proc.devRef .tc main_arg3) := by after_results_simp <;> (try simp only [TRef.toBuf, TRef.ofBuf, cast_eq]) <;> rfl
theorem keepD7_arg4 : after opsD7 W (Proc.devRef .tc main_arg4) = W (Proc.devRef .tc main_arg4) := by after_results_simp <;> (try simp only [TRef.toBuf, TRef.ofBuf, cast_eq]) <;> rfl
theorem keepD7_arg5 : after opsD7 W (Proc.devRef .tc main_arg5) = W (Proc.devRef .tc main_arg5) := by after_results_simp <;> (try simp only [TRef.toBuf, TRef.ofBuf, cast_eq]) <;> rfl
theorem keepD7_arg6 : after opsD7 W (Proc.devRef .tc main_arg6) = W (Proc.devRef .tc main_arg6) := by after_results_simp <;> (try simp only [TRef.toBuf, TRef.ofBuf, cast_eq]) <;> rfl
theorem keepD7_arg7 : after opsD7 W (Proc.devRef .tc main_arg7) = W (Proc.devRef .tc main_arg7) := by after_results_simp <;> (try simp only [TRef.toBuf, TRef.ofBuf, cast_eq]) <;> rfl
theorem keepD7_arg8 : after opsD7 W (Proc.devRef .tc main_arg8) = W (Proc.devRef .tc main_arg8) := by after_results_simp <;> (try simp only [TRef.toBuf, TRef.ofBuf, cast_eq]) <;> rfl
theorem keepD7_arg9 : after opsD7 W (Proc.devRef .tc main_arg9) = W (Proc.devRef .tc main_arg9) := by after_results_simp <;> (try simp only [TRef.toBuf, TRef.ofBuf, cast_eq]) <;> rfl
theorem keepD7_arg10 : after opsD7 W (Proc.devRef .tc main_arg10) = W (Proc.devRef .tc main_arg10) := by after_results_simp <;> (try simp only [TRef.toBuf, TRef.ofBuf, cast_eq]) <;> rfl

/-! ## The run: the stretches composed, from the launch contents -/

variable (m : (ℓ : Loc nD τ sig) → Buf (Elt F) ℓ) (c : Dev nD)

/-- The buffers after each stretch. -/
def VA : Valuation τ sig (Elt F) := after opsA (launchContents m c)
def VB : Valuation τ sig (Elt F) := after opsB (VA m c)
def VC : Valuation τ sig (Elt F) := after opsC (VB m c)
def VD1 : Valuation τ sig (Elt F) := after opsD1 (VC m c)
def VD2 : Valuation τ sig (Elt F) := after opsD2 (VD1 m c)
def VD3 : Valuation τ sig (Elt F) := after opsD3 (VD2 m c)
def VD4 : Valuation τ sig (Elt F) := after opsD4 (VD3 m c)
def VD5 : Valuation τ sig (Elt F) := after opsD5 (VD4 m c)
def VD6 : Valuation τ sig (Elt F) := after opsD6 (VD5 m c)

/-- The whole line is the last operation from what the stretches before it leave. -/
theorem after_ops : after ops (launchContents m c) = after opsD7 (VD6 m c) := by
  rw [ops_eq, StableHlo.after_append, StableHlo.after_append, StableHlo.after_append, StableHlo.after_append, StableHlo.after_append,
    StableHlo.after_append, StableHlo.after_append, StableHlo.after_append, StableHlo.after_append]
  rfl

/-- The two hidden layers' results. -/
def h0 : FVec F S100000x64 .f32 := relu (agg (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4))
def h1 : FVec F S100000x64 .f32 := relu (agg (m ((c.tc : Thread nD τ).loc main_arg1)) (h0 m c)) (h0 m c) (m ((c.tc : Thread nD τ).loc main_arg5)) (m ((c.tc : Thread nD τ).loc main_arg6)) (m ((c.tc : Thread nD τ).loc main_arg7))

theorem VA_arg0 : VA m c (Proc.devRef .tc main_arg0) = m ((c.tc : Thread nD τ).loc main_arg0) := keepA_arg0 _
theorem VA_arg1 : VA m c (Proc.devRef .tc main_arg1) = m ((c.tc : Thread nD τ).loc main_arg1) := keepA_arg1 _
theorem VA_arg2 : VA m c (Proc.devRef .tc main_arg2) = m ((c.tc : Thread nD τ).loc main_arg2) := keepA_arg2 _
theorem VA_arg3 : VA m c (Proc.devRef .tc main_arg3) = m ((c.tc : Thread nD τ).loc main_arg3) := keepA_arg3 _
theorem VA_arg4 : VA m c (Proc.devRef .tc main_arg4) = m ((c.tc : Thread nD τ).loc main_arg4) := keepA_arg4 _
theorem VA_arg5 : VA m c (Proc.devRef .tc main_arg5) = m ((c.tc : Thread nD τ).loc main_arg5) := keepA_arg5 _
theorem VA_arg6 : VA m c (Proc.devRef .tc main_arg6) = m ((c.tc : Thread nD τ).loc main_arg6) := keepA_arg6 _
theorem VA_arg7 : VA m c (Proc.devRef .tc main_arg7) = m ((c.tc : Thread nD τ).loc main_arg7) := keepA_arg7 _
theorem VA_arg8 : VA m c (Proc.devRef .tc main_arg8) = m ((c.tc : Thread nD τ).loc main_arg8) := keepA_arg8 _
theorem VA_arg9 : VA m c (Proc.devRef .tc main_arg9) = m ((c.tc : Thread nD τ).loc main_arg9) := keepA_arg9 _
theorem VA_arg10 : VA m c (Proc.devRef .tc main_arg10) = m ((c.tc : Thread nD τ).loc main_arg10) := keepA_arg10 _
theorem VA_v1 : VA m c (Proc.devRef .tc main_v1) = dRow (m ((c.tc : Thread nD τ).loc main_arg1)) := stageA_v1 _
theorem VA_v3 : VA m c (Proc.devRef .tc main_v3) = srcRow (m ((c.tc : Thread nD τ).loc main_arg1)) := stageA_v3 _
theorem VA_v12 : VA m c (Proc.devRef .tc main_v12) = dCol (m ((c.tc : Thread nD τ).loc main_arg1)) := stageA_v12 _
theorem VA_v31 : VA m c (Proc.devRef .tc main_v31) = h0 m c := stageA_v31 _

theorem VB_arg0 : VB m c (Proc.devRef .tc main_arg0) = m ((c.tc : Thread nD τ).loc main_arg0) := (keepB_arg0 _).trans (VA_arg0 m c)
theorem VB_arg1 : VB m c (Proc.devRef .tc main_arg1) = m ((c.tc : Thread nD τ).loc main_arg1) := (keepB_arg1 _).trans (VA_arg1 m c)
theorem VB_arg2 : VB m c (Proc.devRef .tc main_arg2) = m ((c.tc : Thread nD τ).loc main_arg2) := (keepB_arg2 _).trans (VA_arg2 m c)
theorem VB_arg3 : VB m c (Proc.devRef .tc main_arg3) = m ((c.tc : Thread nD τ).loc main_arg3) := (keepB_arg3 _).trans (VA_arg3 m c)
theorem VB_arg4 : VB m c (Proc.devRef .tc main_arg4) = m ((c.tc : Thread nD τ).loc main_arg4) := (keepB_arg4 _).trans (VA_arg4 m c)
theorem VB_arg5 : VB m c (Proc.devRef .tc main_arg5) = m ((c.tc : Thread nD τ).loc main_arg5) := (keepB_arg5 _).trans (VA_arg5 m c)
theorem VB_arg6 : VB m c (Proc.devRef .tc main_arg6) = m ((c.tc : Thread nD τ).loc main_arg6) := (keepB_arg6 _).trans (VA_arg6 m c)
theorem VB_arg7 : VB m c (Proc.devRef .tc main_arg7) = m ((c.tc : Thread nD τ).loc main_arg7) := (keepB_arg7 _).trans (VA_arg7 m c)
theorem VB_arg8 : VB m c (Proc.devRef .tc main_arg8) = m ((c.tc : Thread nD τ).loc main_arg8) := (keepB_arg8 _).trans (VA_arg8 m c)
theorem VB_arg9 : VB m c (Proc.devRef .tc main_arg9) = m ((c.tc : Thread nD τ).loc main_arg9) := (keepB_arg9 _).trans (VA_arg9 m c)
theorem VB_arg10 : VB m c (Proc.devRef .tc main_arg10) = m ((c.tc : Thread nD τ).loc main_arg10) := (keepB_arg10 _).trans (VA_arg10 m c)
theorem VB_v1 : VB m c (Proc.devRef .tc main_v1) = dRow (m ((c.tc : Thread nD τ).loc main_arg1)) := (keepB_v1 _).trans (VA_v1 m c)
theorem VB_v3 : VB m c (Proc.devRef .tc main_v3) = srcRow (m ((c.tc : Thread nD τ).loc main_arg1)) := (keepB_v3 _).trans (VA_v3 m c)
theorem VB_v12 : VB m c (Proc.devRef .tc main_v12) = dCol (m ((c.tc : Thread nD τ).loc main_arg1)) := (keepB_v12 _).trans (VA_v12 m c)
theorem VB_v50 : VB m c (Proc.devRef .tc main_v50) = h1 m c := by
  unfold VB
  rw [stageB_v50, VA_v31, VA_v1, VA_v3, VA_v12, VA_arg5, VA_arg6, VA_arg7, ← agg_eq]
  rfl

theorem VC_arg0 : VC m c (Proc.devRef .tc main_arg0) = m ((c.tc : Thread nD τ).loc main_arg0) := (keepC_arg0 _).trans (VB_arg0 m c)
theorem VC_arg1 : VC m c (Proc.devRef .tc main_arg1) = m ((c.tc : Thread nD τ).loc main_arg1) := (keepC_arg1 _).trans (VB_arg1 m c)
theorem VC_arg2 : VC m c (Proc.devRef .tc main_arg2) = m ((c.tc : Thread nD τ).loc main_arg2) := (keepC_arg2 _).trans (VB_arg2 m c)
theorem VC_arg3 : VC m c (Proc.devRef .tc main_arg3) = m ((c.tc : Thread nD τ).loc main_arg3) := (keepC_arg3 _).trans (VB_arg3 m c)
theorem VC_arg4 : VC m c (Proc.devRef .tc main_arg4) = m ((c.tc : Thread nD τ).loc main_arg4) := (keepC_arg4 _).trans (VB_arg4 m c)
theorem VC_arg5 : VC m c (Proc.devRef .tc main_arg5) = m ((c.tc : Thread nD τ).loc main_arg5) := (keepC_arg5 _).trans (VB_arg5 m c)
theorem VC_arg6 : VC m c (Proc.devRef .tc main_arg6) = m ((c.tc : Thread nD τ).loc main_arg6) := (keepC_arg6 _).trans (VB_arg6 m c)
theorem VC_arg7 : VC m c (Proc.devRef .tc main_arg7) = m ((c.tc : Thread nD τ).loc main_arg7) := (keepC_arg7 _).trans (VB_arg7 m c)
theorem VC_arg8 : VC m c (Proc.devRef .tc main_arg8) = m ((c.tc : Thread nD τ).loc main_arg8) := (keepC_arg8 _).trans (VB_arg8 m c)
theorem VC_arg9 : VC m c (Proc.devRef .tc main_arg9) = m ((c.tc : Thread nD τ).loc main_arg9) := (keepC_arg9 _).trans (VB_arg9 m c)
theorem VC_arg10 : VC m c (Proc.devRef .tc main_arg10) = m ((c.tc : Thread nD τ).loc main_arg10) := (keepC_arg10 _).trans (VB_arg10 m c)
theorem VC_v68 : VC m c (Proc.devRef .tc main_v68) = lin2 (agg (m ((c.tc : Thread nD τ).loc main_arg1)) (h1 m c)) (h1 m c) (m ((c.tc : Thread nD τ).loc main_arg8)) (m ((c.tc : Thread nD τ).loc main_arg9)) (m ((c.tc : Thread nD τ).loc main_arg10)) := by
  unfold VC
  rw [stageC_v68, VB_v50, VB_v1, VB_v3, VB_v12, VB_arg8, VB_arg9, VB_arg10, ← agg_eq]

/-- The last layer's affine part. -/
def l2 : FVec F S100000x40 .f32 := lin2 (agg (m ((c.tc : Thread nD τ).loc main_arg1)) (h1 m c)) (h1 m c) (m ((c.tc : Thread nD τ).loc main_arg8)) (m ((c.tc : Thread nD τ).loc main_arg9)) (m ((c.tc : Thread nD τ).loc main_arg10))
theorem VC_v68' : VC m c (Proc.devRef .tc main_v68) = l2 m c := VC_v68 m c

theorem VD1_arg0 : VD1 m c (Proc.devRef .tc main_arg0) = m ((c.tc : Thread nD τ).loc main_arg0) := (keepD1_arg0 _).trans (VC_arg0 m c)
theorem VD1_arg1 : VD1 m c (Proc.devRef .tc main_arg1) = m ((c.tc : Thread nD τ).loc main_arg1) := (keepD1_arg1 _).trans (VC_arg1 m c)
theorem VD1_arg2 : VD1 m c (Proc.devRef .tc main_arg2) = m ((c.tc : Thread nD τ).loc main_arg2) := (keepD1_arg2 _).trans (VC_arg2 m c)
theorem VD1_arg3 : VD1 m c (Proc.devRef .tc main_arg3) = m ((c.tc : Thread nD τ).loc main_arg3) := (keepD1_arg3 _).trans (VC_arg3 m c)
theorem VD1_arg4 : VD1 m c (Proc.devRef .tc main_arg4) = m ((c.tc : Thread nD τ).loc main_arg4) := (keepD1_arg4 _).trans (VC_arg4 m c)
theorem VD1_arg5 : VD1 m c (Proc.devRef .tc main_arg5) = m ((c.tc : Thread nD τ).loc main_arg5) := (keepD1_arg5 _).trans (VC_arg5 m c)
theorem VD1_arg6 : VD1 m c (Proc.devRef .tc main_arg6) = m ((c.tc : Thread nD τ).loc main_arg6) := (keepD1_arg6 _).trans (VC_arg6 m c)
theorem VD1_arg7 : VD1 m c (Proc.devRef .tc main_arg7) = m ((c.tc : Thread nD τ).loc main_arg7) := (keepD1_arg7 _).trans (VC_arg7 m c)
theorem VD1_arg8 : VD1 m c (Proc.devRef .tc main_arg8) = m ((c.tc : Thread nD τ).loc main_arg8) := (keepD1_arg8 _).trans (VC_arg8 m c)
theorem VD1_arg9 : VD1 m c (Proc.devRef .tc main_arg9) = m ((c.tc : Thread nD τ).loc main_arg9) := (keepD1_arg9 _).trans (VC_arg9 m c)
theorem VD1_arg10 : VD1 m c (Proc.devRef .tc main_arg10) = m ((c.tc : Thread nD τ).loc main_arg10) := (keepD1_arg10 _).trans (VC_arg10 m c)
theorem VD2_arg0 : VD2 m c (Proc.devRef .tc main_arg0) = m ((c.tc : Thread nD τ).loc main_arg0) := (keepD2_arg0 _).trans (VD1_arg0 m c)
theorem VD2_arg1 : VD2 m c (Proc.devRef .tc main_arg1) = m ((c.tc : Thread nD τ).loc main_arg1) := (keepD2_arg1 _).trans (VD1_arg1 m c)
theorem VD2_arg2 : VD2 m c (Proc.devRef .tc main_arg2) = m ((c.tc : Thread nD τ).loc main_arg2) := (keepD2_arg2 _).trans (VD1_arg2 m c)
theorem VD2_arg3 : VD2 m c (Proc.devRef .tc main_arg3) = m ((c.tc : Thread nD τ).loc main_arg3) := (keepD2_arg3 _).trans (VD1_arg3 m c)
theorem VD2_arg4 : VD2 m c (Proc.devRef .tc main_arg4) = m ((c.tc : Thread nD τ).loc main_arg4) := (keepD2_arg4 _).trans (VD1_arg4 m c)
theorem VD2_arg5 : VD2 m c (Proc.devRef .tc main_arg5) = m ((c.tc : Thread nD τ).loc main_arg5) := (keepD2_arg5 _).trans (VD1_arg5 m c)
theorem VD2_arg6 : VD2 m c (Proc.devRef .tc main_arg6) = m ((c.tc : Thread nD τ).loc main_arg6) := (keepD2_arg6 _).trans (VD1_arg6 m c)
theorem VD2_arg7 : VD2 m c (Proc.devRef .tc main_arg7) = m ((c.tc : Thread nD τ).loc main_arg7) := (keepD2_arg7 _).trans (VD1_arg7 m c)
theorem VD2_arg8 : VD2 m c (Proc.devRef .tc main_arg8) = m ((c.tc : Thread nD τ).loc main_arg8) := (keepD2_arg8 _).trans (VD1_arg8 m c)
theorem VD2_arg9 : VD2 m c (Proc.devRef .tc main_arg9) = m ((c.tc : Thread nD τ).loc main_arg9) := (keepD2_arg9 _).trans (VD1_arg9 m c)
theorem VD2_arg10 : VD2 m c (Proc.devRef .tc main_arg10) = m ((c.tc : Thread nD τ).loc main_arg10) := (keepD2_arg10 _).trans (VD1_arg10 m c)
theorem VD3_arg0 : VD3 m c (Proc.devRef .tc main_arg0) = m ((c.tc : Thread nD τ).loc main_arg0) := (keepD3_arg0 _).trans (VD2_arg0 m c)
theorem VD3_arg1 : VD3 m c (Proc.devRef .tc main_arg1) = m ((c.tc : Thread nD τ).loc main_arg1) := (keepD3_arg1 _).trans (VD2_arg1 m c)
theorem VD3_arg2 : VD3 m c (Proc.devRef .tc main_arg2) = m ((c.tc : Thread nD τ).loc main_arg2) := (keepD3_arg2 _).trans (VD2_arg2 m c)
theorem VD3_arg3 : VD3 m c (Proc.devRef .tc main_arg3) = m ((c.tc : Thread nD τ).loc main_arg3) := (keepD3_arg3 _).trans (VD2_arg3 m c)
theorem VD3_arg4 : VD3 m c (Proc.devRef .tc main_arg4) = m ((c.tc : Thread nD τ).loc main_arg4) := (keepD3_arg4 _).trans (VD2_arg4 m c)
theorem VD3_arg5 : VD3 m c (Proc.devRef .tc main_arg5) = m ((c.tc : Thread nD τ).loc main_arg5) := (keepD3_arg5 _).trans (VD2_arg5 m c)
theorem VD3_arg6 : VD3 m c (Proc.devRef .tc main_arg6) = m ((c.tc : Thread nD τ).loc main_arg6) := (keepD3_arg6 _).trans (VD2_arg6 m c)
theorem VD3_arg7 : VD3 m c (Proc.devRef .tc main_arg7) = m ((c.tc : Thread nD τ).loc main_arg7) := (keepD3_arg7 _).trans (VD2_arg7 m c)
theorem VD3_arg8 : VD3 m c (Proc.devRef .tc main_arg8) = m ((c.tc : Thread nD τ).loc main_arg8) := (keepD3_arg8 _).trans (VD2_arg8 m c)
theorem VD3_arg9 : VD3 m c (Proc.devRef .tc main_arg9) = m ((c.tc : Thread nD τ).loc main_arg9) := (keepD3_arg9 _).trans (VD2_arg9 m c)
theorem VD3_arg10 : VD3 m c (Proc.devRef .tc main_arg10) = m ((c.tc : Thread nD τ).loc main_arg10) := (keepD3_arg10 _).trans (VD2_arg10 m c)
theorem VD4_arg0 : VD4 m c (Proc.devRef .tc main_arg0) = m ((c.tc : Thread nD τ).loc main_arg0) := (keepD4_arg0 _).trans (VD3_arg0 m c)
theorem VD4_arg1 : VD4 m c (Proc.devRef .tc main_arg1) = m ((c.tc : Thread nD τ).loc main_arg1) := (keepD4_arg1 _).trans (VD3_arg1 m c)
theorem VD4_arg2 : VD4 m c (Proc.devRef .tc main_arg2) = m ((c.tc : Thread nD τ).loc main_arg2) := (keepD4_arg2 _).trans (VD3_arg2 m c)
theorem VD4_arg3 : VD4 m c (Proc.devRef .tc main_arg3) = m ((c.tc : Thread nD τ).loc main_arg3) := (keepD4_arg3 _).trans (VD3_arg3 m c)
theorem VD4_arg4 : VD4 m c (Proc.devRef .tc main_arg4) = m ((c.tc : Thread nD τ).loc main_arg4) := (keepD4_arg4 _).trans (VD3_arg4 m c)
theorem VD4_arg5 : VD4 m c (Proc.devRef .tc main_arg5) = m ((c.tc : Thread nD τ).loc main_arg5) := (keepD4_arg5 _).trans (VD3_arg5 m c)
theorem VD4_arg6 : VD4 m c (Proc.devRef .tc main_arg6) = m ((c.tc : Thread nD τ).loc main_arg6) := (keepD4_arg6 _).trans (VD3_arg6 m c)
theorem VD4_arg7 : VD4 m c (Proc.devRef .tc main_arg7) = m ((c.tc : Thread nD τ).loc main_arg7) := (keepD4_arg7 _).trans (VD3_arg7 m c)
theorem VD4_arg8 : VD4 m c (Proc.devRef .tc main_arg8) = m ((c.tc : Thread nD τ).loc main_arg8) := (keepD4_arg8 _).trans (VD3_arg8 m c)
theorem VD4_arg9 : VD4 m c (Proc.devRef .tc main_arg9) = m ((c.tc : Thread nD τ).loc main_arg9) := (keepD4_arg9 _).trans (VD3_arg9 m c)
theorem VD4_arg10 : VD4 m c (Proc.devRef .tc main_arg10) = m ((c.tc : Thread nD τ).loc main_arg10) := (keepD4_arg10 _).trans (VD3_arg10 m c)
theorem VD5_arg0 : VD5 m c (Proc.devRef .tc main_arg0) = m ((c.tc : Thread nD τ).loc main_arg0) := (keepD5_arg0 _).trans (VD4_arg0 m c)
theorem VD5_arg1 : VD5 m c (Proc.devRef .tc main_arg1) = m ((c.tc : Thread nD τ).loc main_arg1) := (keepD5_arg1 _).trans (VD4_arg1 m c)
theorem VD5_arg2 : VD5 m c (Proc.devRef .tc main_arg2) = m ((c.tc : Thread nD τ).loc main_arg2) := (keepD5_arg2 _).trans (VD4_arg2 m c)
theorem VD5_arg3 : VD5 m c (Proc.devRef .tc main_arg3) = m ((c.tc : Thread nD τ).loc main_arg3) := (keepD5_arg3 _).trans (VD4_arg3 m c)
theorem VD5_arg4 : VD5 m c (Proc.devRef .tc main_arg4) = m ((c.tc : Thread nD τ).loc main_arg4) := (keepD5_arg4 _).trans (VD4_arg4 m c)
theorem VD5_arg5 : VD5 m c (Proc.devRef .tc main_arg5) = m ((c.tc : Thread nD τ).loc main_arg5) := (keepD5_arg5 _).trans (VD4_arg5 m c)
theorem VD5_arg6 : VD5 m c (Proc.devRef .tc main_arg6) = m ((c.tc : Thread nD τ).loc main_arg6) := (keepD5_arg6 _).trans (VD4_arg6 m c)
theorem VD5_arg7 : VD5 m c (Proc.devRef .tc main_arg7) = m ((c.tc : Thread nD τ).loc main_arg7) := (keepD5_arg7 _).trans (VD4_arg7 m c)
theorem VD5_arg8 : VD5 m c (Proc.devRef .tc main_arg8) = m ((c.tc : Thread nD τ).loc main_arg8) := (keepD5_arg8 _).trans (VD4_arg8 m c)
theorem VD5_arg9 : VD5 m c (Proc.devRef .tc main_arg9) = m ((c.tc : Thread nD τ).loc main_arg9) := (keepD5_arg9 _).trans (VD4_arg9 m c)
theorem VD5_arg10 : VD5 m c (Proc.devRef .tc main_arg10) = m ((c.tc : Thread nD τ).loc main_arg10) := (keepD5_arg10 _).trans (VD4_arg10 m c)
theorem VD6_arg0 : VD6 m c (Proc.devRef .tc main_arg0) = m ((c.tc : Thread nD τ).loc main_arg0) := (keepD6_arg0 _).trans (VD5_arg0 m c)
theorem VD6_arg1 : VD6 m c (Proc.devRef .tc main_arg1) = m ((c.tc : Thread nD τ).loc main_arg1) := (keepD6_arg1 _).trans (VD5_arg1 m c)
theorem VD6_arg2 : VD6 m c (Proc.devRef .tc main_arg2) = m ((c.tc : Thread nD τ).loc main_arg2) := (keepD6_arg2 _).trans (VD5_arg2 m c)
theorem VD6_arg3 : VD6 m c (Proc.devRef .tc main_arg3) = m ((c.tc : Thread nD τ).loc main_arg3) := (keepD6_arg3 _).trans (VD5_arg3 m c)
theorem VD6_arg4 : VD6 m c (Proc.devRef .tc main_arg4) = m ((c.tc : Thread nD τ).loc main_arg4) := (keepD6_arg4 _).trans (VD5_arg4 m c)
theorem VD6_arg5 : VD6 m c (Proc.devRef .tc main_arg5) = m ((c.tc : Thread nD τ).loc main_arg5) := (keepD6_arg5 _).trans (VD5_arg5 m c)
theorem VD6_arg6 : VD6 m c (Proc.devRef .tc main_arg6) = m ((c.tc : Thread nD τ).loc main_arg6) := (keepD6_arg6 _).trans (VD5_arg6 m c)
theorem VD6_arg7 : VD6 m c (Proc.devRef .tc main_arg7) = m ((c.tc : Thread nD τ).loc main_arg7) := (keepD6_arg7 _).trans (VD5_arg7 m c)
theorem VD6_arg8 : VD6 m c (Proc.devRef .tc main_arg8) = m ((c.tc : Thread nD τ).loc main_arg8) := (keepD6_arg8 _).trans (VD5_arg8 m c)
theorem VD6_arg9 : VD6 m c (Proc.devRef .tc main_arg9) = m ((c.tc : Thread nD τ).loc main_arg9) := (keepD6_arg9 _).trans (VD5_arg9 m c)
theorem VD6_arg10 : VD6 m c (Proc.devRef .tc main_arg10) = m ((c.tc : Thread nD τ).loc main_arg10) := (keepD6_arg10 _).trans (VD5_arg10 m c)

theorem VD1_v68 : VD1 m c (Proc.devRef .tc main_v68) = l2 m c := (keepD1_v68 _).trans (VC_v68' m c)
theorem VD2_v68 : VD2 m c (Proc.devRef .tc main_v68) = l2 m c := (keepD2_v68 _).trans (VD1_v68 m c)
theorem VD3_v68 : VD3 m c (Proc.devRef .tc main_v68) = l2 m c := (keepD3_v68 _).trans (VD2_v68 m c)
theorem VD1_v0 : VD1 m c (Proc.devRef .tc main_call2_v0)
    = Host.reduce FloatOps.maximumf (l2 m c) (constant S_ .f32 0xFF800000#32) reducesTo_S100000x40_S100000_d1 h_S_ := by
  unfold VD1; rw [stageD1_v0, VC_v68']
theorem VD2_v2 : VD2 m c (Proc.devRef .tc main_call2_v2)
    = maximumf (broadcastInDim S100000 ![] bcast_S_S100000 (constant S_ .f32 0xFF800000#32)) (Host.reduce FloatOps.maximumf (l2 m c) (constant S_ .f32 0xFF800000#32) reducesTo_S100000x40_S100000_d1 h_S_) := by
  unfold VD2; rw [stageD2_v2, VD1_v0]
theorem VD3_v4 : VD3 m c (Proc.devRef .tc main_call2_v4) = rowMaxB (l2 m c) := by
  unfold VD3; rw [stageD3_v4, VD2_v2]; rfl
theorem VD4_v5 : VD4 m c (Proc.devRef .tc main_call2_v5) = subf (l2 m c) (rowMaxB (l2 m c)) := by
  unfold VD4; rw [stageD4_v5, VD3_v68, VD3_v4]
theorem VD4_v6 : VD4 m c (Proc.devRef .tc main_call2_v6) = Host.exp (subf (l2 m c) (rowMaxB (l2 m c))) := by
  unfold VD4; rw [stageD4_v6, VD3_v68, VD3_v4]
theorem VD5_v5 : VD5 m c (Proc.devRef .tc main_call2_v5) = subf (l2 m c) (rowMaxB (l2 m c)) := (keepD5_call2_v5 _).trans (VD4_v5 m c)
theorem VD6_v5 : VD6 m c (Proc.devRef .tc main_call2_v5) = subf (l2 m c) (rowMaxB (l2 m c)) := (keepD6_call2_v5 _).trans (VD5_v5 m c)
theorem VD5_v7 : VD5 m c (Proc.devRef .tc main_call2_v7)
    = Host.reduceAdd (Host.exp (subf (l2 m c) (rowMaxB (l2 m c)))) (constant S_ .f32 0x00000000#32) reducesTo_S100000x40_S100000_d1 h_S_ := by
  unfold VD5; rw [stageD5_v7, VD4_v6]
theorem VD6_v10 : VD6 m c (Proc.devRef .tc main_call2_v10)
    = broadcastInDim S100000x40 ![0, 1] bcast_S100000x1_S100000x40_0_1 (Host.log (broadcastInDim S100000x1 ![0] bcast_S100000_S100000x1_0
        (Host.reduceAdd (Host.exp (subf (l2 m c) (rowMaxB (l2 m c)))) (constant S_ .f32 0x00000000#32) reducesTo_S100000x40_S100000_d1 h_S_))) := by
  unfold VD6; rw [stageD6_v10, VD5_v7]

/-- The run's result buffer holds the three layers of the arguments. -/
theorem res_eq : after ops (launchContents m c) (Proc.devRef .tc main_v69)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [after_ops, stageD7_v69, VD6_v5, VD6_v10]
  rfl

theorem arg0_eq : after ops (launchContents m c) (Proc.devRef .tc main_arg0) = m ((c.tc : Thread nD τ).loc main_arg0) := by
  rw [after_ops]; exact (keepD7_arg0 _).trans (VD6_arg0 m c)
theorem arg1_eq : after ops (launchContents m c) (Proc.devRef .tc main_arg1) = m ((c.tc : Thread nD τ).loc main_arg1) := by
  rw [after_ops]; exact (keepD7_arg1 _).trans (VD6_arg1 m c)
theorem arg2_eq : after ops (launchContents m c) (Proc.devRef .tc main_arg2) = m ((c.tc : Thread nD τ).loc main_arg2) := by
  rw [after_ops]; exact (keepD7_arg2 _).trans (VD6_arg2 m c)
theorem arg3_eq : after ops (launchContents m c) (Proc.devRef .tc main_arg3) = m ((c.tc : Thread nD τ).loc main_arg3) := by
  rw [after_ops]; exact (keepD7_arg3 _).trans (VD6_arg3 m c)
theorem arg4_eq : after ops (launchContents m c) (Proc.devRef .tc main_arg4) = m ((c.tc : Thread nD τ).loc main_arg4) := by
  rw [after_ops]; exact (keepD7_arg4 _).trans (VD6_arg4 m c)
theorem arg5_eq : after ops (launchContents m c) (Proc.devRef .tc main_arg5) = m ((c.tc : Thread nD τ).loc main_arg5) := by
  rw [after_ops]; exact (keepD7_arg5 _).trans (VD6_arg5 m c)
theorem arg6_eq : after ops (launchContents m c) (Proc.devRef .tc main_arg6) = m ((c.tc : Thread nD τ).loc main_arg6) := by
  rw [after_ops]; exact (keepD7_arg6 _).trans (VD6_arg6 m c)
theorem arg7_eq : after ops (launchContents m c) (Proc.devRef .tc main_arg7) = m ((c.tc : Thread nD τ).loc main_arg7) := by
  rw [after_ops]; exact (keepD7_arg7 _).trans (VD6_arg7 m c)
theorem arg8_eq : after ops (launchContents m c) (Proc.devRef .tc main_arg8) = m ((c.tc : Thread nD τ).loc main_arg8) := by
  rw [after_ops]; exact (keepD7_arg8 _).trans (VD6_arg8 m c)
theorem arg9_eq : after ops (launchContents m c) (Proc.devRef .tc main_arg9) = m ((c.tc : Thread nD τ).loc main_arg9) := by
  rw [after_ops]; exact (keepD7_arg9 _).trans (VD6_arg9 m c)
theorem arg10_eq : after ops (launchContents m c) (Proc.devRef .tc main_arg10) = m ((c.tc : Thread nD τ).loc main_arg10) := by
  rw [after_ops]; exact (keepD7_arg10 _).trans (VD6_arg10 m c)

/-- On every device, from any memory with zero counters: every weakly fair execution of the reference terminates with its
    result buffer at the three layers of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v69).trans (res_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c),
      (h c main_arg9).trans (arg9_eq m c),
      (h c main_arg10).trans (arg10_eq m c)⟩)
    (run_seq scopedRefs_eq scopedSems_eq defs main (fun _ => ops) main_eq (fun _ => ops_sub) m ρ)

end Cert.ReferenceIdeal.RefValue

end
-- ==== Proof.Bridge.lean ====
/-
  The two programs' results are one function of the arguments.

  Both programs compute, three times over, the neighbourhood mean of the current node array by the same host operations
  (`agg`: the two spellings unfold to one term), followed by a layer. The reference's hidden layer at an entry is
  `Sage.reluOut` of the node's two rows with the bias read from the vector; the kernel's is the same with the bias read from
  the vector reshaped to one row, and a reshape keeps the row-major order: entry `(0, j)` of the row is entry `j` of the vector.
  Likewise for the last layer and `Sage.lsmOut`. So layer by layer the two results agree.
-/
import proofs.«175299_j15985868276093_1_alg».proof.Proof.RefLayers
import proofs.«175299_j15985868276093_1_alg».proof.Proof.KLayers
import proofs.«175299_j15985868276093_1_alg».proof.Proof.Spec
import Idealize.ShloMosaic.Lib.ValueIdx
import Idealize.ShloMosaic.Lib.Pipeline.Value

noncomputable section

namespace Cert.Bridge

open Idealize.ShloMosaic Idealize.ShloMosaic.ValueIdx

/-- The neighbourhood mean is spelt by the same operations in both programs. -/
theorem agg_eq {F : FTy → Type} [FloatOps F] (e : IVec Cert.ReferenceIdeal.S2x1250000 32) (h : FVec F Cert.ReferenceIdeal.S100000x64 .f32) :
    Cert.RefLayers.agg e h = Cert.KLayers.agg e h := rfl

/-- A bias vector reshaped to one row, at entry `(0, j)`: the vector's entry `j` (both are at row-major position `j`). -/
theorem row64_apply (b : FVec Ideal Cert.KernelIdeal.S64 .f32) (j : Fin 64) :
    shapeCast Cert.KernelIdeal.S1x64 b Cert.KernelIdeal.Gen.shapeCasts_S64_S1x64 (ix2 0 j) = b (ix1 j) :=
  shapeCast_apply b _ (ix2 0 j) (ix1 j) (by
    rw [Shape.rowMajor_val_two, Shape.rowMajor_val_one]
    show j.val = 0 * 64 + j.val
    omega)

theorem row40_apply (b : FVec Ideal Cert.KernelIdeal.S40 .f32) (j : Fin 40) :
    shapeCast Cert.KernelIdeal.S1x40 b Cert.KernelIdeal.Gen.shapeCasts_S40_S1x40 (ix2 0 j) = b (ix1 j) :=
  shapeCast_apply b _ (ix2 0 j) (ix1 j) (by
    rw [Shape.rowMajor_val_two, Shape.rowMajor_val_one]
    show j.val = 0 * 40 + j.val
    omega)

/-- The reference's hidden layer is the kernel's, the bias reshaped to a row. -/
theorem relu_eq (a x : FVec Ideal Cert.ReferenceIdeal.S100000x64 .f32) (wl wr : FVec Ideal Cert.ReferenceIdeal.S64x64 .f32)
    (b : FVec Ideal Cert.ReferenceIdeal.S64 .f32) :
    Cert.RefLayers.relu a x wl wr b
      = Sage.reluArr a x wl wr (shapeCast Cert.KernelIdeal.S1x64 b Cert.KernelIdeal.Gen.shapeCasts_S64_S1x64) := by
  funext i
  obtain ⟨r, j, rfl⟩ : ∃ (r : Fin 100000) (j : Fin 64), i = ix2 r j := ⟨i 0, i 1, eq_ix2 i⟩
  rw [Cert.RefLayers.relu_apply, Sage.reluArr_ix2]
  rw [show (fun j => shapeCast Cert.KernelIdeal.S1x64 b Cert.KernelIdeal.Gen.shapeCasts_S64_S1x64 (ix2 0 j)) = (fun j => b (ix1 j)) from funext fun j => row64_apply b j]

/-- The reference's last layer is the kernel's, the bias reshaped to a row. -/
theorem lsm_eq (a x : FVec Ideal Cert.ReferenceIdeal.S100000x64 .f32) (wl wr : FVec Ideal Cert.ReferenceIdeal.S64x40 .f32)
    (b : FVec Ideal Cert.ReferenceIdeal.S40 .f32) :
    Cert.RefLayers.lsm (Cert.RefLayers.lin2 a x wl wr b)
      = Sage.lsmArr a x wl wr (shapeCast Cert.KernelIdeal.S1x40 b Cert.KernelIdeal.Gen.shapeCasts_S40_S1x40) := by
  funext i
  obtain ⟨r, j, rfl⟩ : ∃ (r : Fin 100000) (j : Fin 40), i = ix2 r j := ⟨i 0, i 1, eq_ix2 i⟩
  rw [Cert.RefLayers.lsm_lin2_apply, Sage.lsmArr_ix2]
  rw [show (fun j => shapeCast Cert.KernelIdeal.S1x40 b Cert.KernelIdeal.Gen.shapeCasts_S40_S1x40 (ix2 0 j)) = (fun j => b (ix1 j)) from funext fun j => row40_apply b j]

/-- The reference's three layers are the kernel's. -/
theorem result_eq (x : FVec Ideal Cert.ReferenceIdeal.S100000x64 .f32) (e : IVec Cert.ReferenceIdeal.S2x1250000 32)
    (w2 w3 : FVec Ideal Cert.ReferenceIdeal.S64x64 .f32) (b4 : FVec Ideal Cert.ReferenceIdeal.S64 .f32)
    (w5 w6 : FVec Ideal Cert.ReferenceIdeal.S64x64 .f32) (b7 : FVec Ideal Cert.ReferenceIdeal.S64 .f32)
    (w8 w9 : FVec Ideal Cert.ReferenceIdeal.S64x40 .f32) (b10 : FVec Ideal Cert.ReferenceIdeal.S40 .f32) :
    Cert.RefLayers.result x e w2 w3 b4 w5 w6 b7 w8 w9 b10
      = Sage.lsmArr
          (Cert.KLayers.agg (F := Ideal) e (Sage.reluArr (Cert.KLayers.agg (F := Ideal) e (Sage.reluArr (Cert.KLayers.agg (F := Ideal) e x) x w2 w3 (shapeCast Cert.KernelIdeal.S1x64 b4 Cert.KernelIdeal.Gen.shapeCasts_S64_S1x64)))
            (Sage.reluArr (Cert.KLayers.agg (F := Ideal) e x) x w2 w3 (shapeCast Cert.KernelIdeal.S1x64 b4 Cert.KernelIdeal.Gen.shapeCasts_S64_S1x64)) w5 w6 (shapeCast Cert.KernelIdeal.S1x64 b7 Cert.KernelIdeal.Gen.shapeCasts_S64_S1x64)))
          (Sage.reluArr (Cert.KLayers.agg (F := Ideal) e (Sage.reluArr (Cert.KLayers.agg (F := Ideal) e x) x w2 w3 (shapeCast Cert.KernelIdeal.S1x64 b4 Cert.KernelIdeal.Gen.shapeCasts_S64_S1x64)))
            (Sage.reluArr (Cert.KLayers.agg (F := Ideal) e x) x w2 w3 (shapeCast Cert.KernelIdeal.S1x64 b4 Cert.KernelIdeal.Gen.shapeCasts_S64_S1x64)) w5 w6 (shapeCast Cert.KernelIdeal.S1x64 b7 Cert.KernelIdeal.Gen.shapeCasts_S64_S1x64))
          w8 w9 (shapeCast Cert.KernelIdeal.S1x40 b10 Cert.KernelIdeal.Gen.shapeCasts_S40_S1x40) := by
  unfold Cert.RefLayers.result
  rw [lsm_eq, relu_eq, relu_eq]
  simp only [agg_eq]

end Cert.Bridge

end
-- ==== Proof.lean ====
/-
  Two programs for a three-layer mean-aggregating graph network over 100000 nodes and 1250000 edges compute one function.

  Each layer takes, per node, the mean of its in-neighbours' features (a gather along the edge sources, a scatter-add at
  the destinations, a division by the in-degree clipped at one) and an affine map of that mean and of the node's own
  features; the two hidden layers clip at zero and the last one takes a row-wise log-softmax.
  The kernel does the affine map, the clipping and the log-softmax in three pallas_calls over blocks of 5000 nodes and
  leaves the gather and scatter-add to the host; the reference does everything on the host. The neighbourhood mean is the
  same operations in both. Per row the two differ in three ways, none of which matters over the extended reals:
  the kernel multiplies into a zero accumulator where the reference contracts (both are the sum over the 64 features);
  the kernel adds the two products and then the bias where the reference adds the bias between them (addition is
  commutative and associative); and the kernel's bias is the vector reshaped to one row (a reshape keeps the order).
  The log-softmax is `h − M − log Σ exp (h − M)` in both, the reference's maximum taken once more against −∞.
  No finiteness of the inputs is used.

  The modules: `Spec` (the layer on a row), `PayRelu` / `PayLsm` (the kernel bodies at an entry), `Region0/1/2` (from
  blocks to arrays), `KLayers` and `KernelValue` (the kernel's program read back to its arguments), `RefLayers` and
  `RefStages` (the reference's, a layer at a time), `Bridge` (the two results are one function), and here the five claims.
-/
import proofs.«175299_j15985868276093_1_alg».proof.Defs
import proofs.«175299_j15985868276093_1_alg».proof.Proof.Gen.Kernel
import proofs.«175299_j15985868276093_1_alg».proof.Proof.Gen.Kernel.Frame
import proofs.«175299_j15985868276093_1_alg».proof.Proof.Gen.KernelIdeal
import proofs.«175299_j15985868276093_1_alg».proof.Proof.Gen.KernelIdeal.Frame
import proofs.«175299_j15985868276093_1_alg».proof.Proof.Gen.ReferenceIdeal
import proofs.«175299_j15985868276093_1_alg».proof.Proof.Gen.Pre_finite_inputs
import proofs.«175299_j15985868276093_1_alg».proof.Proof.KernelRun
import proofs.«175299_j15985868276093_1_alg».proof.Proof.KernelValue
import proofs.«175299_j15985868276093_1_alg».proof.Proof.RefStages
import proofs.«175299_j15985868276093_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.RefValue.run (F := Ideal) m ρ)

/-- From memories that agree on the eleven arguments both programs end with the three layers of those arguments in their
    result buffers. -/
theorem algebraic : Cert.algebraic_KernelIdeal_ReferenceIdeal := by
  intro m ρ m' ρ' _ hagree
  refine ⟨fun c => Cert.KernelIdeal.KValue.out m c, ?_, ?_⟩
  · exact (θ_run Cert.KernelIdeal.defs _ _).mono
      (fun _ h c => ⟨(h c).1.trans (Cert.KernelIdeal.KValue.result_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5, e6, e7, e8, e9, e10⟩ := hagree c
    rw [e0, e1, e2, e3, e4, e5, e6, e7, e8, e9, e10, Cert.Bridge.result_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
